-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S20x512 : Shape := ⟨2, ![20, 512]⟩
abbrev S20 : Shape := ⟨1, ![20]⟩
abbrev S5x20 : Shape := ⟨2, ![5, 20]⟩
abbrev S5x20x20x2 : Shape := ⟨4, ![5, 20, 20, 2]⟩
abbrev S1x5 : Shape := ⟨2, ![1, 5]⟩
abbrev S1 : Shape := ⟨1, ![1]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S20x512 : S_.BroadcastsInDim S20x512 (![] : Fin 0 → Fin S20x512.rank)
  reducesTo_S20x512_S_d0_1 : S20x512.ReducesTo [0, 1] S_
  bcast_S_S20 : S_.BroadcastsInDim S20 (![] : Fin 0 → Fin S20.rank)
  reducesTo_S20_S_d0 : S20.ReducesTo [0] S_
  bcast_S_S5x20 : S_.BroadcastsInDim S5x20 (![] : Fin 0 → Fin S5x20.rank)
  reducesTo_S5x20_S_d0_1 : S5x20.ReducesTo [0, 1] S_
  bcast_S_S5x20x20x2 : S_.BroadcastsInDim S5x20x20x2 (![] : Fin 0 → Fin S5x20x20x2.rank)
  reducesTo_S5x20x20x2_S_d0_1_2_3 : S5x20x20x2.ReducesTo [0, 1, 2, 3] S_
  bcast_S_S1x5 : S_.BroadcastsInDim S1x5 (![] : Fin 0 → Fin S1x5.rank)
  reducesTo_S1x5_S_d0_1 : S1x5.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S5x20x20x2 .f32) (main_arg8 : FVec F S1x5 .f32) (main_arg9 : FVec F S1 .f32) (main_v33 : IVec S_ 1) : IVec S_ 1 :=
  let main_v34 : FVec F S5x20x20x2 .f32 := Host.absf main_arg7
  let main_cst_12 : FVec F S_ .f32 := constant S_ .f32 0x7F800000#32
  let main_v35 : FVec F S5x20x20x2 .f32 := broadcastInDim S5x20x20x2 ![] bcast_S_S5x20x20x2 main_cst_12
  let main_v36 : IVec S5x20x20x2 1 := cmpf .olt main_v34 main_v35
  let main_c_13 : IVec S_ 1 := constantI S_ 1 1#1
  let main_v37 : IVec S_ 1 := (fun x v => Host.reduce IntOp.andi x v reducesTo_S5x20x20x2_S_d0_1_2_3 h_S_) main_v36 main_c_13
  let main_v38 : IVec S_ 1 := andi main_v33 main_v37
  let main_v39 : FVec F S1x5 .f32 := Host.absf main_arg8
  let main_cst_14 : FVec F S_ .f32 := constant S_ .f32 0x7F800000#32
  let main_v40 : FVec F S1x5 .f32 := broadcastInDim S1x5 ![] bcast_S_S1x5 main_cst_14
  let main_v41 : IVec S1x5 1 := cmpf .olt main_v39 main_v40
  let main_c_15 : IVec S_ 1 := constantI S_ 1 1#1
  let main_v42 : IVec S_ 1 := (fun x v => Host.reduce IntOp.andi x v reducesTo_S1x5_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S5x20 .f32) (main_arg5 : FVec F S5x20 .f32) (main_arg6 : FVec F S5x20 .f32) (main_arg7 : FVec F S5x20x20x2 .f32) (main_arg8 : FVec F S1x5 .f32) (main_arg9 : FVec F S1 .f32) (main_v13 : IVec S_ 1) (main_v16 : IVec S5x20 1) : IVec S_ 1 :=
  let main_c_5 : IVec S_ 1 := constantI S_ 1 1#1
  let main_v17 : IVec S_ 1 := (fun x v => Host.reduce IntOp.andi x v reducesTo_S5x20_S_d0_1 h_S_) main_v16 main_c_5
  let main_v18 : IVec S_ 1 := andi main_v13 main_v17
  let main_v19 : FVec F S5x20 .f32 := Host.absf main_arg4
  let main_cst_6 : FVec F S_ .f32 := constant S_ .f32 0x7F800000#32
  let main_v20 : FVec F S5x20 .f32 := broadcastInDim S5x20 ![] bcast_S_S5x20 main_cst_6
  let main_v21 : IVec S5x20 1 := cmpf .olt main_v19 main_v20
  let main_c_7 : IVec S_ 1 := constantI S_ 1 1#1
  let main_v22 : IVec S_ 1 := (fun x v => Host.reduce IntOp.andi x v reducesTo_S5x20_S_d0_1 h_S_) main_v21 main_c_7
  let main_v23 : IVec S_ 1 := andi main_v18 main_v22
  let main_v24 : FVec F S5x20 .f32 := Host.absf main_arg5
  let main_cst_8 : FVec F S_ .f32 := constant S_ .f32 0x7F800000#32
  let main_v25 : FVec F S5x20 .f32 := broadcastInDim S5x20 ![] bcast_S_S5x20 main_cst_8
  let main_v26 : IVec S5x20 1 := cmpf .olt main_v24 main_v25
  let main_c_9 : IVec S_ 1 := constantI S_ 1 1#1
  let main_v27 : IVec S_ 1 := (fun x v => Host.reduce IntOp.andi x v reducesTo_S5x20_S_d0_1 h_S_) main_v26 main_c_9
  let main_v28 : IVec S_ 1 := andi main_v23 main_v27
  let main_v29 : FVec F S5x20 .f32 := Host.absf main_arg6
  let main_cst_10 : FVec F S_ .f32 := constant S_ .f32 0x7F800000#32
  let main_v30 : FVec F S5x20 .f32 := broadcastInDim S5x20 ![] bcast_S_S5x20 main_cst_10
  let main_v31 : IVec S5x20 1 := cmpf .olt main_v29 main_v30
  let main_c_11 : IVec S_ 1 := constantI S_ 1 1#1
  let main_v32 : IVec S_ 1 := (fun x v => Host.reduce IntOp.andi x v reducesTo_S5x20_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x512 .f32) (main_arg1 : FVec F S20x512 .f32) (main_arg2 : FVec F S20 .f32) (main_arg3 : FVec F S5x20 .f32) (main_arg4 : FVec F S5x20 .f32) (main_arg5 : FVec F S5x20 .f32) (main_arg6 : FVec F S5x20 .f32) (main_arg7 : FVec F S5x20x20x2 .f32) (main_arg8 : FVec F S1x5 .f32) (main_arg9 : FVec F S1 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S20x512 .f32 := Host.absf main_arg1
  let main_cst_0 : FVec F S_ .f32 := constant S_ .f32 0x7F800000#32
  let main_v5 : FVec F S20x512 .f32 := broadcastInDim S20x512 ![] bcast_S_S20x512 main_cst_0
  let main_v6 : IVec S20x512 1 := cmpf .olt main_v4 main_v5
  let main_c_1 : IVec S_ 1 := constantI S_ 1 1#1
  let main_v7 : IVec S_ 1 := (fun x v => Host.reduce IntOp.andi x v reducesTo_S20x512_S_d0_1 h_S_) main_v6 main_c_1
  let main_v8 : IVec S_ 1 := andi main_v3 main_v7
  let main_v9 : FVec F S20 .f32 := Host.absf main_arg2
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_v14 : FVec F S5x20 .f32 := Host.absf main_arg3
  let main_cst_4 : FVec F S_ .f32 := constant S_ .f32 0x7F800000#32
  let main_v15 : FVec F S5x20 .f32 := broadcastInDim S5x20 ![] bcast_S_S5x20 main_cst_4
  let main_v16 : IVec S5x20 1 := cmpf .olt main_v14 main_v15
  fn_part1 (F := F) main_arg4 main_arg5 main_arg6 main_arg7 main_arg8 main_arg9 main_v13 main_v16
-- ==== Kernel.lean ====
abbrev S32768x512 : Shape := ⟨2, ![32768, 512]⟩
abbrev S20x512 : Shape := ⟨2, ![20, 512]⟩
abbrev S20 : Shape := ⟨1, ![20]⟩
abbrev S5x20 : Shape := ⟨2, ![5, 20]⟩
abbrev S5x20x20x2 : Shape := ⟨4, ![5, 20, 20, 2]⟩
abbrev S1x5 : Shape := ⟨2, ![1, 5]⟩
abbrev S1 : Shape := ⟨1, ![1]⟩
abbrev S1x20 : Shape := ⟨2, ![1, 20]⟩
abbrev S5x20x20x1 : Shape := ⟨4, ![5, 20, 20, 1]⟩
abbrev S5x20x20 : Shape := ⟨3, ![5, 20, 20]⟩
abbrev S32768x5 : Shape := ⟨2, ![32768, 5]⟩
abbrev S256x512 : Shape := ⟨2, ![256, 512]⟩
abbrev S256x5 : Shape := ⟨2, ![256, 5]⟩
abbrev S512x20 : Shape := ⟨2, ![512, 20]⟩
abbrev S256x20 : Shape := ⟨2, ![256, 20]⟩
abbrev S256x20x1 : Shape := ⟨3, ![256, 20, 1]⟩
abbrev S256x1x20 : Shape := ⟨3, ![256, 1, 20]⟩
abbrev S256x20x20 : Shape := ⟨3, ![256, 20, 20]⟩
abbrev S1x20x20 : Shape := ⟨3, ![1, 20, 20]⟩
abbrev S20x20 : Shape := ⟨2, ![20, 20]⟩
abbrev S256 : Shape := ⟨1, ![256]⟩
abbrev S256x1 : Shape := ⟨2, ![256, 1]⟩
abbrev S_ : Shape := ⟨0, ![]⟩
abbrev S1x1 : Shape := ⟨2, ![1, 1]⟩
abbrev S32768x1 : Shape := ⟨2, ![32768, 1]⟩
abbrev S2048x5 : Shape := ⟨2, ![2048, 5]⟩
abbrev S2048x1 : Shape := ⟨2, ![2048, 1]⟩
abbrev S2048 : Shape := ⟨1, ![2048]⟩

abbrev nBuf : Space → Nat
  | .hbm => 21
  | .vmem => 19
  | .smem => 0
  | _ => 0

abbrev bufTy : (tb : Table) → Fin (tcTables nBuf tb) → BufTy
  | .hbm, ⟨0, _⟩ => ⟨S32768x512, .f32⟩
  | .hbm, ⟨1, _⟩ => ⟨S20x512, .f32⟩
  | .hbm, ⟨2, _⟩ => ⟨S20, .f32⟩
  | .hbm, ⟨3, _⟩ => ⟨S5x20, .f32⟩
  | .hbm, ⟨4, _⟩ => ⟨S5x20, .f32⟩
  | .hbm, ⟨5, _⟩ => ⟨S5x20, .f32⟩
  | .hbm, ⟨6, _⟩ => ⟨S5x20, .f32⟩
  | .hbm, ⟨7, _⟩ => ⟨S5x20x20x2, .f32⟩
  | .hbm, ⟨8, _⟩ => ⟨S1x5, .f32⟩
  | .hbm, ⟨9, _⟩ => ⟨S1, .f32⟩
  | .hbm, ⟨10, _⟩ => ⟨S1x20, .f32⟩
  | .hbm, ⟨11, _⟩ => ⟨S5x20x20x1, .f32⟩
  | .hbm, ⟨12, _⟩ => ⟨S5x20x20, .f32⟩
  | .hbm, ⟨13, _⟩ => ⟨S5x20x20x1, .f32⟩
  | .hbm, ⟨14, _⟩ => ⟨S5x20x20, .f32⟩
  | .hbm, ⟨15, _⟩ => ⟨S32768x5, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S1x1, .f32⟩
  | .hbm, ⟨20, _⟩ => ⟨S32768x1, .f32⟩
  | .local _ .vmem, ⟨0, _⟩ => ⟨S256x512, .f32⟩
  | .local _ .vmem, ⟨1, _⟩ => ⟨S256x512, .f32⟩
  | .local _ .vmem, ⟨2, _⟩ => ⟨S20x512, .f32⟩
  | .local _ .vmem, ⟨3, _⟩ => ⟨S1x20, .f32⟩
  | .local _ .vmem, ⟨4, _⟩ => ⟨S5x20, .f32⟩
  | .local _ .vmem, ⟨5, _⟩ => ⟨S5x20, .f32⟩
  | .local _ .vmem, ⟨6, _⟩ => ⟨S5x20, .f32⟩
  | .local _ .vmem, ⟨7, _⟩ => ⟨S5x20, .f32⟩
  | .local _ .vmem, ⟨8, _⟩ => ⟨S5x20x20, .f32⟩
  | .local _ .vmem, ⟨9, _⟩ => ⟨S5x20x20, .f32⟩
  | .local _ .vmem, ⟨10, _⟩ => ⟨S256x5, .f32⟩
  | .local _ .vmem, ⟨11, _⟩ => ⟨S256x5, .f32⟩
  | .local _ .vmem, ⟨12, _⟩ => ⟨S2048x5, .f32⟩
  | .local _ .vmem, ⟨13, _⟩ => ⟨S2048x5, .f32⟩
  | .local _ .vmem, ⟨14, _⟩ => ⟨S1x5, .f32⟩
  | .local _ .vmem, ⟨15, _⟩ => ⟨S1x1, .f32⟩
  | .local _ .vmem, ⟨16, _⟩ => ⟨S1x1, .f32⟩
  | .local _ .vmem, ⟨17, _⟩ => ⟨S2048x1, .f32⟩
  | .local _ .vmem, ⟨18, _⟩ => ⟨S2048x1, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x20 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x20 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S5x20x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S5x20x20 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x5 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x5 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S20_S1x20 : S20.ShapeCasts S1x20
  slices_S5x20x20x2_S5x20x20x1_0_0_0_0 : S5x20x20x2.Slices ![0, 0, 0, 0] S5x20x20x1
  shapeCasts_S5x20x20x1_S5x20x20 : S5x20x20x1.ShapeCasts S5x20x20
  slices_S5x20x20x2_S5x20x20x1_0_0_0_1 : S5x20x20x2.Slices ![0, 0, 0, 1] S5x20x20x1
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S20x512_S20x512_0_0 : ∀ a, (![0, 0] : Fin 2 → Nat) a + S20x512.size a ≤ S20x512.size a
  h_S20x512 : 0 < S20x512.numel
  transposes_S20x512_p1_0_S512x20 : S20x512.Transposes [1, 0] S512x20
  inb_S1x20_S1x20_0_0 : ∀ a, (![0, 0] : Fin 2 → Nat) a + S1x20.size a ≤ S1x20.size a
  h_S1x20 : 0 < S1x20.numel
  shapeCasts_S1x20_S1x20 : S1x20.ShapeCasts S1x20
  broadcasts_S1x20_S256x20 : S1x20.Broadcasts S256x20
  inb_S5x20_S1x20_0_0 : ∀ a, (![0, 0] : Fin 2 → Nat) a + S1x20.size a ≤ S5x20.size a
  shapeCasts_S1x20_S20 : S1x20.ShapeCasts S20
  shapeCasts_S256x20_S256x20x1 : S256x20.ShapeCasts S256x20x1
  shapeCasts_S256x20_S256x1x20 : S256x20.ShapeCasts S256x1x20
  broadcasts_S256x20x1_S256x20x20 : S256x20x1.Broadcasts S256x20x20
  broadcasts_S256x1x20_S256x20x20 : S256x1x20.Broadcasts S256x20x20
  inb_S5x20x20_S1x20x20_0_0_0 : ∀ a, (![0, 0, 0] : Fin 3 → Nat) a + S1x20x20.size a ≤ S5x20x20.size a
  h_S1x20x20 : 0 < S1x20x20.numel
  shapeCasts_S1x20x20_S20x20 : S1x20x20.ShapeCasts S20x20
  shapeCasts_S20x20_S1x20x20 : S20x20.ShapeCasts S1x20x20
  broadcasts_S1x20x20_S256x20x20 : S1x20x20.Broadcasts S256x20x20
  reduces_S256x20x20_S256x20 : S256x20x20.Reduces [2] S256x20
  reduces_S256x20_S256 : S256x20.Reduces [1] S256
  shapeCasts_S256_S256x1 : S256.ShapeCasts S256x1
  inb_S5x20_S1x20_1_0 : ∀ a, (![1, 0] : Fin 2 → Nat) a + S1x20.size a ≤ S5x20.size a
  inb_S5x20x20_S1x20x20_1_0_0 : ∀ a, (![1, 0, 0] : Fin 3 → Nat) a + S1x20x20.size a ≤ S5x20x20.size a
  inb_S5x20_S1x20_2_0 : ∀ a, (![2, 0] : Fin 2 → Nat) a + S1x20.size a ≤ S5x20.size a
  inb_S5x20x20_S1x20x20_2_0_0 : ∀ a, (![2, 0, 0] : Fin 3 → Nat) a + S1x20x20.size a ≤ S5x20x20.size a
  inb_S5x20_S1x20_3_0 : ∀ a, (![3, 0] : Fin 2 → Nat) a + S1x20.size a ≤ S5x20.size a
  inb_S5x20x20_S1x20x20_3_0_0 : ∀ a, (![3, 0, 0] : Fin 3 → Nat) a + S1x20x20.size a ≤ S5x20x20.size a
  inb_S5x20_S1x20_4_0 : ∀ a, (![4, 0] : Fin 2 → Nat) a + S1x20.size a ≤ S5x20.size a
  inb_S5x20x20_S1x20x20_4_0_0 : ∀ a, (![4, 0, 0] : Fin 3 → Nat) a + S1x20x20.size a ≤ S5x20x20.size a
  concatenates_S256x1_S256x1_S256x1_S256x1_S256x1_S256x5_d1 : Shape.Concatenates [S256x1, S256x1, S256x1, S256x1, S256x1] S256x5 1
  inb_S256x5_S256x5_0_0 : ∀ a, (![0, 0] : Fin 2 → Nat) a + S256x5.size a ≤ S256x5.size a
  h_S256x5 : 0 < S256x5.numel
  reducesTo_S32768x5_S_d0_1 : S32768x5.ReducesTo [0, 1] S_
  h_S_ : 0 < S_.numel
  shapeCasts_S_S1x1 : S_.ShapeCasts S1x1
  shapeCasts_S1_S1x1 : S1.ShapeCasts S1x1
  inb_S2048x5_S2048x5_0_0 : ∀ a, (![0, 0] : Fin 2 → Nat) a + S2048x5.size a ≤ S2048x5.size a
  h_S2048x5 : 0 < S2048x5.numel
  shapeCasts_S2048x5_S2048x5 : S2048x5.ShapeCasts S2048x5
  inb_S1x5_S1x5_0_0 : ∀ a, (![0, 0] : Fin 2 → Nat) a + S1x5.size a ≤ S1x5.size a
  h_S1x5 : 0 < S1x5.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inpos_S1x1_p0_0 : ∀ a, (![0, 0] : Fin 2 → Nat) a < S1x1.size a
  broadcasts_S1x5_S2048x5 : S1x5.Broadcasts S2048x5
  reduces_S2048x5_S2048 : S2048x5.Reduces [1] S2048
  shapeCasts_S2048_S2048x1 : S2048.ShapeCasts S2048x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S256x512_S512x20_S256x20_1_0_0_1_n_n_wf : DotDims.WF S256x512 S512x20 S256x20 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S32768x512.size a
  hwx0_0 : ∀ i : grid0.Coords, EltTy.bits .f32 = 32 ∨ (Rect.block (s := S32768x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x512.size a ≤ S20x512.size a
  hwx0_1 : ∀ i : grid0.Coords, EltTy.bits .f32 = 32 ∨ (Rect.block (s := S20x512) S20x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x20.size a ≤ S5x20.size a
  hwx0_3 : ∀ i : grid0.Coords, EltTy.bits .f32 = 32 ∨ (Rect.block (s := S5x20) S5x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S5x20.size a ≤ S5x20.size a
  hwx0_4 : ∀ i : grid0.Coords, EltTy.bits .f32 = 32 ∨ (Rect.block (s := S5x20) S5x20.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x20.size a ≤ S5x20.size a
  hwx0_5 : ∀ i : grid0.Coords, EltTy.bits .f32 = 32 ∨ (Rect.block (s := S5x20) S5x20.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x20.size a ≤ S5x20.size a
  hwx0_6 : ∀ i : grid0.Coords, EltTy.bits .f32 = 32 ∨ (Rect.block (s := S5x20) S5x20.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S5x20x20.size a ≤ S5x20x20.size a
  hwx0_7 : ∀ i : grid0.Coords, EltTy.bits .f32 = 32 ∨ (Rect.block (s := S5x20x20) S5x20x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S5x20x20.size a ≤ S5x20x20.size a
  hwx0_8 : ∀ i : grid0.Coords, EltTy.bits .f32 = 32 ∨ (Rect.block (s := S5x20x20) S5x20x20.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x5.size a ≤ S32768x5.size a
  hwx0_9 : ∀ i : grid0.Coords, EltTy.bits .f32 = 32 ∨ (Rect.block (s := S32768x5) S256x5.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x5.size a ≤ S32768x5.size a
  hwx1_0 : ∀ i : grid1.Coords, EltTy.bits .f32 = 32 ∨ (Rect.block (s := S32768x5) S2048x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x5.size a ≤ S1x5.size a
  hwx1_1 : ∀ i : grid1.Coords, EltTy.bits .f32 = 32 ∨ (Rect.block (s := S1x5) S1x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2048x1.size a ≤ S32768x1.size a
  hwx1_4 : ∀ i : grid1.Coords, EltTy.bits .f32 = 32 ∨ (Rect.block (s := S32768x1) S2048x1.size (cc1_transform_4 i) (hinb1_4 i)).WholeWords (EltTy.packing .f32)

variable [Facts₀]

def dot_S256x512_S512x20_S256x20_1_0_0_1_n_n : DotDims S256x512 S512x20 S256x20 where
  lhsContracting := [1]
  rhsContracting := [0]
  lhsNonContracting := [0]
  rhsNonContracting := [1]
  lhsBatch := []
  rhsBatch := []
  wf := dot_S256x512_S512x20_S256x20_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S20x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S5x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S5x20.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x20.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x20.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S5x20x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S5x20x20.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S256x5.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v5) S2048x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg8) S1x5.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v8) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S2048x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32768x512 : Shape := ⟨2, ![32768, 512]⟩
abbrev S20x512 : Shape := ⟨2, ![20, 512]⟩
abbrev S20 : Shape := ⟨1, ![20]⟩
abbrev S5x20 : Shape := ⟨2, ![5, 20]⟩
abbrev S5x20x20x2 : Shape := ⟨4, ![5, 20, 20, 2]⟩
abbrev S1x5 : Shape := ⟨2, ![1, 5]⟩
abbrev S1 : Shape := ⟨1, ![1]⟩
abbrev S512x20 : Shape := ⟨2, ![512, 20]⟩
abbrev S32768x20 : Shape := ⟨2, ![32768, 20]⟩
abbrev S1x20 : Shape := ⟨2, ![1, 20]⟩
abbrev S_ : Shape := ⟨0, ![]⟩
abbrev S32768x1x20 : Shape := ⟨3, ![32768, 1, 20]⟩
abbrev S1x5x20 : Shape := ⟨3, ![1, 5, 20]⟩
abbrev S32768x5x20 : Shape := ⟨3, ![32768, 5, 20]⟩
abbrev S32768x5x20x1 : Shape := ⟨4, ![32768, 5, 20, 1]⟩
abbrev S32768x5x1x20 : Shape := ⟨4, ![32768, 5, 1, 20]⟩
abbrev S32768x5x20x20 : Shape := ⟨4, ![32768, 5, 20, 20]⟩
abbrev S5x20x20x1 : Shape := ⟨4, ![5, 20, 20, 1]⟩
abbrev S5x20x20 : Shape := ⟨3, ![5, 20, 20]⟩
abbrev S1x5x20x20 : Shape := ⟨4, ![1, 5, 20, 20]⟩
abbrev S32768x5 : Shape := ⟨2, ![32768, 5]⟩
abbrev S5x1 : Shape := ⟨2, ![5, 1]⟩
abbrev S32768x1 : Shape := ⟨2, ![32768, 1]⟩
abbrev S1x1 : Shape := ⟨2, ![1, 1]⟩

abbrev nBuf : Space → Nat
  | .hbm => 105
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S20x512, .f32⟩
  | .hbm, ⟨2, _⟩ => ⟨S20, .f32⟩
  | .hbm, ⟨3, _⟩ => ⟨S5x20, .f32⟩
  | .hbm, ⟨4, _⟩ => ⟨S5x20, .f32⟩
  | .hbm, ⟨5, _⟩ => ⟨S5x20, .f32⟩
  | .hbm, ⟨6, _⟩ => ⟨S5x20, .f32⟩
  | .hbm, ⟨7, _⟩ => ⟨S5x20x20x2, .f32⟩
  | .hbm, ⟨8, _⟩ => ⟨S1x5, .f32⟩
  | .hbm, ⟨9, _⟩ => ⟨S1, .f32⟩
  | .hbm, ⟨10, _⟩ => ⟨S512x20, .f32⟩
  | .hbm, ⟨11, _⟩ => ⟨S32768x20, .f32⟩
  | .hbm, ⟨12, _⟩ => ⟨S1x20, .f32⟩
  | .hbm, ⟨13, _⟩ => ⟨S32768x20, .f32⟩
  | .hbm, ⟨14, _⟩ => ⟨S32768x20, .f32⟩
  | .hbm, ⟨15, _⟩ => ⟨S_, .f32⟩
  | .hbm, ⟨16, _⟩ => ⟨S32768x20, .f32⟩
  | .hbm, ⟨17, _⟩ => ⟨S32768x20, .f32⟩
  | .hbm, ⟨18, _⟩ => ⟨S32768x1x20, .f32⟩
  | .hbm, ⟨19, _⟩ => ⟨S1x5x20, .f32⟩
  | .hbm, ⟨20, _⟩ => ⟨S1x5x20, .f32⟩
  | .hbm, ⟨21, _⟩ => ⟨S32768x5x20, .f32⟩
  | .hbm, ⟨22, _⟩ => ⟨S32768x5x20, .f32⟩
  | .hbm, ⟨23, _⟩ => ⟨S32768x5x20, .f32⟩
  | .hbm, ⟨24, _⟩ => ⟨S32768x5x20, .f32⟩
  | .hbm, ⟨25, _⟩ => ⟨S32768x5x20, .f32⟩
  | .hbm, ⟨26, _⟩ => ⟨S_, .f32⟩
  | .hbm, ⟨27, _⟩ => ⟨S32768x5x20, .f32⟩
  | .hbm, ⟨28, _⟩ => ⟨S32768x5x20, .f32⟩
  | .hbm, ⟨29, _⟩ => ⟨S32768x5x20, .f32⟩
  | .hbm, ⟨30, _⟩ => ⟨S1x5x20, .f32⟩
  | .hbm, ⟨31, _⟩ => ⟨S32768x5x20, .f32⟩
  | .hbm, ⟨32, _⟩ => ⟨S32768x5x20, .f32⟩
  | .hbm, ⟨33, _⟩ => ⟨S_, .f32⟩
  | .hbm, ⟨34, _⟩ => ⟨S32768x5x20, .f32⟩
  | .hbm, ⟨35, _⟩ => ⟨S32768x5x20, .f32⟩
  | .hbm, ⟨36, _⟩ => ⟨S32768x1x20, .f32⟩
  | .hbm, ⟨37, _⟩ => ⟨S1x5x20, .f32⟩
  | .hbm, ⟨38, _⟩ => ⟨S1x5x20, .f32⟩
  | .hbm, ⟨39, _⟩ => ⟨S32768x5x20, .f32⟩
  | .hbm, ⟨40, _⟩ => ⟨S32768x5x20, .f32⟩
  | .hbm, ⟨41, _⟩ => ⟨S32768x5x20, .f32⟩
  | .hbm, ⟨42, _⟩ => ⟨S32768x5x20, .f32⟩
  | .hbm, ⟨43, _⟩ => ⟨S32768x5x20, .f32⟩
  | .hbm, ⟨44, _⟩ => ⟨S_, .f32⟩
  | .hbm, ⟨45, _⟩ => ⟨S32768x5x20, .f32⟩
  | .hbm, ⟨46, _⟩ => ⟨S32768x5x20, .f32⟩
  | .hbm, ⟨47, _⟩ => ⟨S32768x5x20, .f32⟩
  | .hbm, ⟨48, _⟩ => ⟨S1x5x20, .f32⟩
  | .hbm, ⟨49, _⟩ => ⟨S32768x5x20, .f32⟩
  | .hbm, ⟨50, _⟩ => ⟨S32768x5x20, .f32⟩
  | .hbm, ⟨51, _⟩ => ⟨S_, .f32⟩
  | .hbm, ⟨52, _⟩ => ⟨S32768x5x20, .f32⟩
  | .hbm, ⟨53, _⟩ => ⟨S32768x5x20, .f32⟩
  | .hbm, ⟨54, _⟩ => ⟨S32768x5x20x1, .f32⟩
  | .hbm, ⟨55, _⟩ => ⟨S32768x5x1x20, .f32⟩
  | .hbm, ⟨56, _⟩ => ⟨S32768x5x20x20, .f32⟩
  | .hbm, ⟨57, _⟩ => ⟨S32768x5x20x20, .f32⟩
  | .hbm, ⟨58, _⟩ => ⟨S32768x5x20x20, .f32⟩
  | .hbm, ⟨59, _⟩ => ⟨S32768x5x20x1, .f32⟩
  | .hbm, ⟨60, _⟩ => ⟨S32768x5x1x20, .f32⟩
  | .hbm, ⟨61, _⟩ => ⟨S32768x5x20x20, .f32⟩
  | .hbm, ⟨62, _⟩ => ⟨S32768x5x20x20, .f32⟩
  | .hbm, ⟨63, _⟩ => ⟨S32768x5x20x20, .f32⟩
  | .hbm, ⟨64, _⟩ => ⟨S5x20x20x1, .f32⟩
  | .hbm, ⟨65, _⟩ => ⟨S5x20x20, .f32⟩
  | .hbm, ⟨66, _⟩ => ⟨S1x5x20x20, .f32⟩
  | .hbm, ⟨67, _⟩ => ⟨S32768x5x20x20, .f32⟩
  | .hbm, ⟨68, _⟩ => ⟨S32768x5x20x20, .f32⟩
  | .hbm, ⟨69, _⟩ => ⟨S5x20x20x1, .f32⟩
  | .hbm, ⟨70, _⟩ => ⟨S5x20x20, .f32⟩
  | .hbm, ⟨71, _⟩ => ⟨S1x5x20x20, .f32⟩
  | .hbm, ⟨72, _⟩ => ⟨S32768x5x20x20, .f32⟩
  | .hbm, ⟨73, _⟩ => ⟨S32768x5x20x20, .f32⟩
  | .hbm, ⟨74, _⟩ => ⟨S32768x5x20x20, .f32⟩
  | .hbm, ⟨75, _⟩ => ⟨S32768x5x20x20, .f32⟩
  | .hbm, ⟨76, _⟩ => ⟨S32768x5x20x20, .i1⟩
  | .hbm, ⟨77, _⟩ => ⟨S32768x5x20x20, .f32⟩
  | .hbm, ⟨78, _⟩ => ⟨S32768x5x20x20, .f32⟩
  | .hbm, ⟨79, _⟩ => ⟨S32768x5x20x20, .f32⟩
  | .hbm, ⟨80, _⟩ => ⟨S32768x5x20x20, .f32⟩
  | .hbm, ⟨81, _⟩ => ⟨S32768x5x20x20, .f32⟩
  | .hbm, ⟨82, _⟩ => ⟨S32768x5x20x20, .f32⟩
  | .hbm, ⟨83, _⟩ => ⟨S32768x5x20x20, .f32⟩
  | .hbm, ⟨84, _⟩ => ⟨S_, .f32⟩
  | .hbm, ⟨85, _⟩ => ⟨S32768x5, .f32⟩
  | .hbm, ⟨86, _⟩ => ⟨S32768x5, .f32⟩
  | .hbm, ⟨87, _⟩ => ⟨S32768x5, .f32⟩
  | .hbm, ⟨88, _⟩ => ⟨S_, .f32⟩
  | .hbm, ⟨89, _⟩ => ⟨S_, .f32⟩
  | .hbm, ⟨90, _⟩ => ⟨S32768x5, .f32⟩
  | .hbm, ⟨91, _⟩ => ⟨S32768x5, .f32⟩
  | .hbm, ⟨92, _⟩ => ⟨S5x1, .f32⟩
  | .hbm, ⟨93, _⟩ => ⟨S32768x1, .f32⟩
  | .hbm, ⟨94, _⟩ => ⟨S1x1, .f32⟩
  | .hbm, ⟨95, _⟩ => ⟨S32768x1, .f32⟩
  | .hbm, ⟨96, _⟩ => ⟨S32768x1, .f32⟩
  | .hbm, ⟨97, _⟩ => ⟨S32768x1, .f32⟩
  | .hbm, ⟨98, _⟩ => ⟨S32768x1, .f32⟩
  | .hbm, ⟨99, _⟩ => ⟨S_, .f32⟩
  | .hbm, ⟨100, _⟩ => ⟨S32768x1, .f32⟩
  | .hbm, ⟨101, _⟩ => ⟨S32768x1, .f32⟩
  | .hbm, ⟨102, _⟩ => ⟨S_, .f32⟩
  | .hbm, ⟨103, _⟩ => ⟨S32768x1, .f32⟩
  | .hbm, ⟨104, _⟩ => ⟨S32768x1, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_2 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_cst_3 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_4 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_cst_5 : Ref sig .tc := ⟨.hbm, 99, rfl⟩
abbrev main_v81 : Ref sig .tc := ⟨.hbm, 100, rfl⟩
abbrev main_v82 : Ref sig .tc := ⟨.hbm, 101, rfl⟩
abbrev main_cst_6 : Ref sig .tc := ⟨.hbm, 102, rfl⟩
abbrev main_v83 : Ref sig .tc := ⟨.hbm, 103, rfl⟩
abbrev main_v84 : Ref sig .tc := ⟨.hbm, 104, rfl⟩

abbrev nD : Nat := 1
abbrev τ : Topo := Topo.v7x

variable {F : FTy → Type} [FloatOps F]

class Facts₀ : Prop where
  transposes_S20x512_S512x20_1_0 : S20x512.Transposes [1, 0] S512x20
  bcast_S20_S1x20_1 : S20.BroadcastsInDim S1x20 (![1] : Fin 1 → Fin S1x20.rank)
  bcast_S1x20_S32768x20_0_1 : S1x20.BroadcastsInDim S32768x20 (![0, 1] : Fin 2 → Fin S32768x20.rank)
  bcast_S_S32768x20 : S_.BroadcastsInDim S32768x20 (![] : Fin 0 → Fin S32768x20.rank)
  bcast_S32768x20_S32768x1x20_0_2 : S32768x20.BroadcastsInDim S32768x1x20 (![0, 2] : Fin 2 → Fin S32768x1x20.rank)
  bcast_S5x20_S1x5x20_1_2 : S5x20.BroadcastsInDim S1x5x20 (![1, 2] : Fin 2 → Fin S1x5x20.rank)
  bcast_S32768x1x20_S32768x5x20_0_1_2 : S32768x1x20.BroadcastsInDim S32768x5x20 (![0, 1, 2] : Fin 3 → Fin S32768x5x20.rank)
  bcast_S1x5x20_S32768x5x20_0_1_2 : S1x5x20.BroadcastsInDim S32768x5x20 (![0, 1, 2] : Fin 3 → Fin S32768x5x20.rank)
  bcast_S_S32768x5x20 : S_.BroadcastsInDim S32768x5x20 (![] : Fin 0 → Fin S32768x5x20.rank)
  bcast_S32768x5x20_S32768x5x20x1_0_1_2 : S32768x5x20.BroadcastsInDim S32768x5x20x1 (![0, 1, 2] : Fin 3 → Fin S32768x5x20x1.rank)
  bcast_S32768x5x20_S32768x5x1x20_0_1_3 : S32768x5x20.BroadcastsInDim S32768x5x1x20 (![0, 1, 3] : Fin 3 → Fin S32768x5x1x20.rank)
  bcast_S32768x5x20x1_S32768x5x20x20_0_1_2_3 : S32768x5x20x1.BroadcastsInDim S32768x5x20x20 (![0, 1, 2, 3] : Fin 4 → Fin S32768x5x20x20.rank)
  bcast_S32768x5x1x20_S32768x5x20x20_0_1_2_3 : S32768x5x1x20.BroadcastsInDim S32768x5x20x20 (![0, 1, 2, 3] : Fin 4 → Fin S32768x5x20x20.rank)
  slices_S5x20x20x2_S5x20x20x1_0_0_0_0 : S5x20x20x2.Slices ![0, 0, 0, 0] S5x20x20x1
  shapeCasts_S5x20x20x1_S5x20x20 : S5x20x20x1.ShapeCasts S5x20x20
  bcast_S5x20x20_S1x5x20x20_1_2_3 : S5x20x20.BroadcastsInDim S1x5x20x20 (![1, 2, 3] : Fin 3 → Fin S1x5x20x20.rank)
  bcast_S1x5x20x20_S32768x5x20x20_0_1_2_3 : S1x5x20x20.BroadcastsInDim S32768x5x20x20 (![0, 1, 2, 3] : Fin 4 → Fin S32768x5x20x20.rank)
  slices_S5x20x20x2_S5x20x20x1_0_0_0_1 : S5x20x20x2.Slices ![0, 0, 0, 1] S5x20x20x1
  reducesTo_S32768x5x20x20_S32768x5_d2_3 : S32768x5x20x20.ReducesTo [2, 3] S32768x5
  h_S_ : 0 < S_.numel
  reducesTo_S32768x5_S_d0_1 : S32768x5.ReducesTo [0, 1] S_
  bcast_S_S32768x5 : S_.BroadcastsInDim S32768x5 (![] : Fin 0 → Fin S32768x5.rank)
  transposes_S1x5_S5x1_1_0 : S1x5.Transposes [1, 0] S5x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  dot_S32768x512_S512x20_S32768x20_1_0_0_1_n_n_wf : DotDims.WF S32768x512 S512x20 S32768x20 [1] [0] [0] [1] [] []
  dot_S32768x5_S5x1_S32768x1_1_0_0_1_n_n_wf : DotDims.WF S32768x5 S5x1 S32768x1 [1] [0] [0] [1] [] []

variable [Facts₀]

def dot_S32768x512_S512x20_S32768x20_1_0_0_1_n_n : DotDims S32768x512 S512x20 S32768x20 where
  lhsContracting := [1]
  rhsContracting := [0]
  lhsNonContracting := [0]
  rhsNonContracting := [1]
  lhsBatch := []
  rhsBatch := []
  wf := dot_S32768x512_S512x20_S32768x20_1_0_0_1_n_n_wf
def dot_S32768x5_S5x1_S32768x1_1_0_0_1_n_n : DotDims S32768x5 S5x1 S32768x1 where
  lhsContracting := [1]
  rhsContracting := [0]
  lhsNonContracting := [0]
  rhsNonContracting := [1]
  lhsBatch := []
  rhsBatch := []
  wf := dot_S32768x5_S5x1_S32768x1_1_0_0_1_n_n_wf

class Facts : Prop extends Facts₀ where

variable [Facts]
-- ==== Proof.Spec.lean ====
/-
  The function both programs compute, written once over the extended reals and plain `Fin` indices.

  A row `b` of the batch is sent through an affine map and a relu to twenty hidden units (`hid`). For each of the
  five output nodes `o` every hidden unit `j` has two Gaussian leaves, with log-densities `leaf` (mean and
  standard deviation per node and unit). A product node over the pair `(j, k)` adds the two leaves' log-densities;
  a sum node mixes the two products with log-weights by `lae`, the log of a sum of two exponentials in its
  stable spelling `max a b + log (1 + exp (-|a - b|))`. The root adds all four hundred sum nodes, and the node's value
  is `yv`, the log of the negated root. Last, with `M` the largest node value over the whole batch, a row's result is
  the logistic function of the affine image of `M - y` (`outv`).

  The two programs differ in how they spell a negation (`0 - x` against `-x`), in the comparison that guards the
  stable form (ordered against unordered "not equal", the same on a linear order, and false of `d` against `d`),
  in the order the root's sum is taken (row by row against all pairs at once), and in the logistic function (one
  operation against `1 / (1 + exp (-x))`): the laws below say these spellings agree on the extended reals. None needs
  a finite argument: sums are only re-associated, never distributed over.
-/
import Idealize.ShloMosaic.PureOps.Ideal.Laws
import Idealize.ShloMosaic.Lib.ValueIdx

noncomputable section

namespace Cert.Spn

open Idealize.ShloMosaic

/-- Hidden unit `j` of row `b`: the relu of `x b · w1 j + b1 j`. -/
def hid (x : Fin 32768 → Fin 512 → EReal) (w1 : Fin 20 → Fin 512 → EReal) (b1 : Fin 20 → EReal)
    (b : Fin 32768) (j : Fin 20) : EReal :=
  max ((∑ k : Fin 512, x b k * w1 j k) + b1 j) 0

/-- The log-density of a Gaussian leaf at `h`: `-z²/2 - log std - log (2π)/2` with `z = (h - mean) / std`; the two
    constants are the single-precision words both programs carry. -/
def leaf (h mean std : EReal) : EReal :=
  Ideal.ofBits .f32 0xBF000000#32 * Ideal.div (h - mean) std * Ideal.div (h - mean) std - Ideal.log std
    - Ideal.ofBits .f32 0x3F6B3F8E#32

/-- `log (exp a + exp b)` in its stable spelling. -/
def lae (a b : EReal) : EReal :=
  max a b + Ideal.log1p (Ideal.exp (-(max (a - b) (-(a - b)))))

/-- The sum node over the pair `(j, k)`: the mixture, in log space, of the two product nodes of the pair. -/
def node (h m0 s0 m1 s1 : Fin 20 → EReal) (lw0 lw1 : Fin 20 → Fin 20 → EReal) (j k : Fin 20) : EReal :=
  lae (lw0 j k + (leaf (h j) (m0 j) (s0 j) + leaf (h k) (m0 k) (s0 k)))
      (lw1 j k + (leaf (h j) (m1 j) (s1 j) + leaf (h k) (m1 k) (s1 k)))

/-- An output node's value: the log of the negated root, the root being the sum of all the sum nodes. -/
def yv (h m0 s0 m1 s1 : Fin 20 → EReal) (lw0 lw1 : Fin 20 → Fin 20 → EReal) : EReal :=
  Ideal.log (-(∑ j : Fin 20, ∑ k : Fin 20, node h m0 s0 m1 s1 lw0 lw1 j k))

/-- A row's result from its five node values `Y`, the batch-wide maximum `M`, and the last affine map. -/
def outv (Y : Fin 5 → EReal) (M : EReal) (w2 : Fin 5 → EReal) (b2 : EReal) : EReal :=
  Ideal.logistic ((∑ o : Fin 5, (M - Y o) * w2 o) + b2)

/-! ## The spellings agree -/

/-- Subtracting from zero is negating. -/
theorem zero_sub_eq_neg (x : EReal) : (0 : EReal) - x = -x := by
  rw [sub_eq_add_neg, zero_add]

/-- An extended real is never different from itself, so the guard picks the stable form: ordered spelling. -/
theorem select_one_self {α : Type} (d : EReal) (x y : α) : Scalar.select (Ideal.cmp .one d d) x y = y := by
  simp [Scalar.select, Ideal.cmp]

/-- The same for the unordered spelling of the guard. -/
theorem select_une_self {α : Type} (d : EReal) (x y : α) : Scalar.select (Ideal.cmp .une d d) x y = y := by
  simp [Scalar.select, Ideal.cmp]

/-- The word of the single-precision `1.0` is the extended real one. -/
theorem ofBits_one_f32 : Ideal.ofBits .f32 0x3F800000#32 = 1 := by
  simp [Ideal.ofBits, Ideal.ieee]
  rw [← EReal.coe_mul]
  norm_num

/-- The logistic function is `1 / (1 + exp (-x))`, by definition. -/
theorem logistic_eq (x : EReal) : Ideal.div 1 (1 + Ideal.exp (-x)) = Ideal.logistic x := rfl

/-- A sum over all pairs is the sum of the rows' sums. -/
theorem sum_pairs (f : Fin 20 → Fin 20 → EReal) :
    (∑ p : Fin 20 × Fin 20, f p.1 p.2) = ∑ j : Fin 20, ∑ k : Fin 20, f j k :=
  Fintype.sum_prod_type' f

end Cert.Spn

end
-- ==== Proof.KSpec.lean ====
/-
  The two kernel regions' results as whole-array functions of the arrays a region finds when it is entered, stated
  through the index-free specification (`Cert.Spn`).

  Region 0 writes the node values: entry `(b, o)` of its output is `Spn.yv` of row `b`'s hidden units and node `o`'s
  leaf parameters and log-weights. The bias comes as a `1 × 20` array and the two log-weight tables as `5 × 20 × 20`
  arrays (the host reshapes and slices them before the region). Region 1 writes the results: entry `(b, 0)` is
  `Spn.outv` of row `b`'s node values, the batch-wide maximum (a `1 × 1` array), the last weights and bias.
-/
import proofs.«121981_j12068858101769_1_alg».proof.KernelIdeal
import proofs.«121981_j12068858101769_1_alg».proof.Proof.Spec

noncomputable section

namespace Cert.KernelIdeal.KSpec

open Cert.KernelIdeal Idealize.ShloMosaic Idealize.ShloMosaic.ValueIdx

/-- The node values, as one array over `(row, node)`. -/
def Y0 (x : S32768x512.Idx → EReal) (w1 : S20x512.Idx → EReal) (b1 : S1x20.Idx → EReal)
    (m0 s0 m1 s1 : S5x20.Idx → EReal) (lw0 lw1 : S5x20x20.Idx → EReal) : S32768x5.Idx → EReal :=
  fun i => Spn.yv
    (fun j => Spn.hid (fun b k => x (ix2 b k)) (fun j k => w1 (ix2 j k)) (fun j => b1 (ix2 0 j)) (i 0) j)
    (fun j => m0 (ix2 (i 1) j)) (fun j => s0 (ix2 (i 1) j)) (fun j => m1 (ix2 (i 1) j)) (fun j => s1 (ix2 (i 1) j))
    (fun j k => lw0 (ix3 (i 1) j k)) (fun j k => lw1 (ix3 (i 1) j k))

/-- The results, as one array over `(row, 0)`, from the node values `y`, the last weights `w2`, the last bias `b2`
    and the batch-wide maximum `mx` (both `1 × 1`). -/
def Out1 (y : S32768x5.Idx → EReal) (w2 : S1x5.Idx → EReal) (b2 : S1x1.Idx → EReal) (mx : S1x1.Idx → EReal) :
    S32768x1.Idx → EReal :=
  fun i => Spn.outv (fun o => y (ix2 (i 0) o)) (mx (ix2 0 0)) (fun o => w2 (ix2 0 o)) (b2 (ix2 0 0))

end Cert.KernelIdeal.KSpec

end
-- ==== Proof.KHost.lean ====
/-
  The host operations around the two kernel regions, read as values.

  Before region 0 the host reshapes the first bias `[20]` to `[1, 20]` and cuts the log-weights `[5, 20, 20, 2]` into its
  two `[5, 20, 20]` tables (a slice of the last axis, then a reshape dropping it); every other array region 0 reads is
  an argument as launched. Between the regions the host takes the maximum of region 0's whole output, reshapes it to
  `[1, 1]`, and reshapes the last bias `[1]` to `[1, 1]`; region 1 reads those, region 0's output, and the last weights as
  launched. The second part reads each of these layout operations at an index.
-/
import proofs.«121981_j12068858101769_1_alg».proof.Proof.Gen.KernelIdeal.Frame
import proofs.«121981_j12068858101769_1_alg».proof.Proof.KSpec
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen Cert.KernelIdeal.KSpec
open Idealize.ShloMosaic Idealize.ShloMosaic.TcCoe Idealize.ShloMosaic.ValueIdx Idealize.SL.Sem Idealize.ShloMosaic.StableHlo
open Idealize.ShloMosaic.Pipeline (Dat Cfg Window)

variable {F : FTy → Type} [FloatOps F]
variable (m : (ℓ : Loc nD τ sig) → Buf (Elt F) ℓ) (ρ : Dev nD → PrngReg)

/-! ## What region 0 finds -/

/-- Argument 0 is untouched by the first host operations. -/
theorem V1_arg0 (c : Dev nD) : V1 m ρ c main_arg0 = m ((c : Thread nD τ).loc main_arg0) :=
  (StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Argument 1 is untouched by the first host operations. -/
theorem V1_arg1 (c : Dev nD) : V1 m ρ c main_arg1 = m ((c : Thread nD τ).loc main_arg1) :=
  (StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Argument 3 is untouched by the first host operations. -/
theorem V1_arg3 (c : Dev nD) : V1 m ρ c main_arg3 = m ((c : Thread nD τ).loc main_arg3) :=
  (StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Argument 4 is untouched by the first host operations. -/
theorem V1_arg4 (c : Dev nD) : V1 m ρ c main_arg4 = m ((c : Thread nD τ).loc main_arg4) :=
  (StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Argument 5 is untouched by the first host operations. -/
theorem V1_arg5 (c : Dev nD) : V1 m ρ c main_arg5 = m ((c : Thread nD τ).loc main_arg5) :=
  (StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl
/-- Argument 6 is untouched by the first host operations. -/
theorem V1_arg6 (c : Dev nD) : V1 m ρ c main_arg6 = m ((c : Thread nD τ).loc main_arg6) :=
  (StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans rfl

/-- The first bias, reshaped to one row. -/
theorem V1_v0 (c : Dev nD) :
    V1 m ρ c main_v0 = shapeCast S1x20 (m ((c : Thread nD τ).loc main_arg2)) shapeCasts_S20_S1x20 := by
  show StableHlo.after hostOps0 (W0 m ρ c) (Proc.devRef .tc main_v0) = _
  after_results; rfl

/-- The first log-weight table: the slice at `0` of the last axis, that axis dropped. -/
theorem V1_v2 (c : Dev nD) :
    V1 m ρ c main_v2 = shapeCast S5x20x20 (extractStridedSlice S5x20x20x1 ![0, 0, 0, 0] (m ((c : Thread nD τ).loc main_arg7))
      slices_S5x20x20x2_S5x20x20x1_0_0_0_0) shapeCasts_S5x20x20x1_S5x20x20 := by
  show StableHlo.after hostOps0 (W0 m ρ c) (Proc.devRef .tc main_v2) = _
  after_results; rfl

/-- The second log-weight table: the slice at `1` of the last axis, that axis dropped. -/
theorem V1_v4 (c : Dev nD) :
    V1 m ρ c main_v4 = shapeCast S5x20x20 (extractStridedSlice S5x20x20x1 ![0, 0, 0, 1] (m ((c : Thread nD τ).loc main_arg7))
      slices_S5x20x20x2_S5x20x20x1_0_0_0_1) shapeCasts_S5x20x20x1_S5x20x20 := by
  show StableHlo.after hostOps0 (W0 m ρ c) (Proc.devRef .tc main_v4) = _
  after_results; rfl

/-! ## What region 1 finds -/

/-- Region 0's output array, as region 0 left it: the host operations between the regions do not write it. -/
theorem V3_v5 (c : Dev nD) : V3 m ρ c main_v5 = (dat0 (V1 m ρ) c).arrAt 9 cfg0.N :=
  (StableHlo.after_of_forall_not_mem (b := Proc.devRef .tc main_v5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (W2_arr m ρ c 9)

/-- The last weights are as launched: neither a host operation nor region 0 writes them. -/
theorem V3_arg8 (c : Dev nD) : V3 m ρ c main_arg8 = m ((c : Thread nD τ).loc main_arg8) :=
  calc V3 m ρ c main_arg8
    _ = W2 m ρ c (Proc.devRef .tc main_arg8) := StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg8) := rfl

/-- The last bias as region 0 left it is the last bias as launched. -/
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = m ((c : Thread nD τ).loc main_arg9) := rfl

/-- The last bias, reshaped to `[1, 1]`. -/
theorem V3_v8 (c : Dev nD) :
    V3 m ρ c main_v8 = shapeCast S1x1 (m ((c : Thread nD τ).loc main_arg9)) shapeCasts_S1_S1x1 := by
  show StableHlo.after hostOps1 (W2 m ρ c) (Proc.devRef .tc main_v8) = _
  after_results
  rw [W2_arg9]; rfl

/-- The maximum of region 0's whole output, reshaped to `[1, 1]`. -/
theorem V3_v7 (c : Dev nD) :
    V3 m ρ c main_v7 = shapeCast S1x1 (Host.reduce FloatOps.maximumf ((dat0 (V1 m ρ) c).arrAt 9 cfg0.N)
      (constant S_ .f32 0xFF800000#32) reducesTo_S32768x5_S_d0_1 h_S_) shapeCasts_S_S1x1 := by
  show StableHlo.after hostOps1 (W2 m ρ c) (Proc.devRef .tc main_v7) = _
  after_results
  rw [show W2 m ρ c (Proc.devRef .tc main_v5) = (dat0 (V1 m ρ) c).arrAt 9 cfg0.N from W2_arr m ρ c 9]; rfl

/-! ## The layout operations read at an index -/

section Layout
variable {α : Type}

/-- A vector reshaped to one row reads, at `(0, j)`, the vector at `j`. -/
theorem row_of_vec (x : S20.Idx → α) (j : Fin 20) : shapeCast S1x20 x shapeCasts_S20_S1x20 (ix2 0 j) = x (ix1 j) :=
  shapeCast_a_1a_apply x shapeCasts_S20_S1x20 0 j

/-- A one-element vector reshaped to `[1, 1]` reads its element. -/
theorem one_of_vec (x : S1.Idx → α) : shapeCast S1x1 x shapeCasts_S1_S1x1 (ix2 0 0) = x (ix1 0) :=
  shapeCast_a_1a_apply x shapeCasts_S1_S1x1 0 0

/-- A scalar reshaped to `[1, 1]` reads the scalar. -/
theorem one_of_scalar (x : S_.Idx → α) : shapeCast S1x1 x shapeCasts_S_S1x1 (ix2 0 0) = x ix0 :=
  shapeCast_apply x shapeCasts_S_S1x1 _ _ (by rw [Shape.rowMajor_val_two]; rfl)

/-- The table cut at `0` of the last axis reads, at `(o, j, k)`, the four-axis array at `(o, j, k, 0)`. -/
theorem table0 (x : S5x20x20x2.Idx → α) (o : Fin 5) (j k : Fin 20) :
    shapeCast S5x20x20 (extractStridedSlice S5x20x20x1 ![0, 0, 0, 0] x slices_S5x20x20x2_S5x20x20x1_0_0_0_0)
      shapeCasts_S5x20x20x1_S5x20x20 (ix3 o j k) = x (ix4 o j k 0) := by
  rw [shapeCast_apply _ shapeCasts_S5x20x20x1_S5x20x20 (ix3 o j k) (ix4 o j k 0) (by
    rw [Shape.rowMajor_val_four, Shape.rowMajor_val_three]; show _ = _; simp [ix3, ix4])]
  exact extractStridedSlice_apply _ x _ _ _ (fun a => by
    match a with
    | ⟨0, _⟩ => simp [ix4]
    | ⟨1, _⟩ => simp [ix4]
    | ⟨2, _⟩ => simp [ix4]
    | ⟨3, _⟩ => simp [ix4])

/-- The table cut at `1` of the last axis reads, at `(o, j, k)`, the four-axis array at `(o, j, k, 1)`. -/
theorem table1 (x : S5x20x20x2.Idx → α) (o : Fin 5) (j k : Fin 20) :
    shapeCast S5x20x20 (extractStridedSlice S5x20x20x1 ![0, 0, 0, 1] x slices_S5x20x20x2_S5x20x20x1_0_0_0_1)
      shapeCasts_S5x20x20x1_S5x20x20 (ix3 o j k) = x (ix4 o j k 1) := by
  rw [shapeCast_apply _ shapeCasts_S5x20x20x1_S5x20x20 (ix3 o j k) (ix4 o j k 0) (by
    rw [Shape.rowMajor_val_four, Shape.rowMajor_val_three]; show _ = _; simp [ix3, ix4])]
  exact extractStridedSlice_apply _ x _ _ _ (fun a => by
    match a with
    | ⟨0, _⟩ => simp [ix4]
    | ⟨1, _⟩ => simp [ix4]
    | ⟨2, _⟩ => simp [ix4]
    | ⟨3, _⟩ => simp [ix4])

end Layout

end Cert.KernelIdeal.Host

end
-- ==== Proof.KRegion0.lean ====
/-
  Region 0 of the kernel program, read as a value: whatever the arrays hold when the region is entered, its output array
  ends holding the node values `KSpec.Y0` of them.

  A grid point stages 256 rows of the inputs and all of every table, and stores one `256 × 5` block. The block is five
  columns side by side, one per output node, and every column is the same chain of whole-block operations applied to the
  block of hidden rows and to the node's rows of the six tables (`col`): the leaves' log-densities, their sums over
  pairs of hidden units, the two mixtures' stable log-sum-exp, the sum over all pairs taken a row at a time, the
  logarithm of its negation. Read at a row, the column is the specification's node value of that row's hidden units
  (`col_apply`); the hidden block at an entry is the relu of an inner product over the 512 input features plus the bias
  (`hidden_apply`); so the stored block at `(r, o)` is node `o`'s value of staged row `r` (`out_apply`). Point `t`'s
  staged rows are rows `256 t + r` of the inputs and its block is rows `256 t + r` of the output, the tables are staged
  whole, and the 128 blocks tile the output array: hence `final`.
-/
import proofs.«121981_j12068858101769_1_alg».proof.Proof.Gen.KernelIdeal.Frame
import proofs.«121981_j12068858101769_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.KernelIdeal.KSpec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One node's column as a chain of whole-block operations -/

/-- The Gaussian leaves' log-densities of a block of hidden rows, for one node's row of means `m` and of standard
    deviations `s`: entry `(b, j)` is the leaf of hidden unit `j` of row `b`. -/
def leafv (h : FVec Ideal S256x20 .f32) (m s : FVec Ideal S1x20 .f32) : FVec Ideal S256x20 .f32 :=
  subf (subf (mulf (mulf (broadcast S256x20 (Scalar.ofBits .f32 0xBF000000#32))
      (divf (subf h (broadcastTo S256x20 m broadcasts_S1x20_S256x20)) (broadcastTo S256x20 s broadcasts_S1x20_S256x20)))
      (divf (subf h (broadcastTo S256x20 m broadcasts_S1x20_S256x20)) (broadcastTo S256x20 s broadcasts_S1x20_S256x20)))
    (broadcastTo S256x20 (log s) broadcasts_S1x20_S256x20)) (broadcast S256x20 (Scalar.ofBits .f32 0x3F6B3F8E#32))

/-- The product nodes of a block of leaves: entry `(b, j, k)` adds the leaves of units `j` and `k` of row `b`. -/
def pairs (L : FVec Ideal S256x20 .f32) : FVec Ideal S256x20x20 .f32 :=
  addf (broadcastTo S256x20x20 (shapeCast S256x20x1 L shapeCasts_S256x20_S256x20x1) broadcasts_S256x20x1_S256x20x20)
    (broadcastTo S256x20x20 (shapeCast S256x1x20 L shapeCasts_S256x20_S256x1x20) broadcasts_S256x1x20_S256x20x20)

/-- A node's row of a log-weight table, laid over every row of the block. -/
def tbl (w : FVec Ideal S1x20x20 .f32) : FVec Ideal S256x20x20 .f32 :=
  broadcastTo S256x20x20 w broadcasts_S1x20x20_S256x20x20

/-- The sum nodes: the stable log of a sum of two exponentials, entry by entry, guarded as the body guards it. -/
def mixv (a b : FVec Ideal S256x20x20 .f32) : FVec Ideal S256x20x20 .f32 :=
  select (cmpf .one (subf a b) (subf a b)) (addf a b)
    (addf (maximumf a b) (log1p (exp (subf (broadcast S256x20x20 (Scalar.ofBits .f32 0x00000000#32)) (absf (subf a b))))))

/-- The root and the node's value: the two lane sums, the negation spelt `0 - x`, the logarithm, as one column. -/
def rootv (s : FVec Ideal S256x20x20 .f32) : FVec Ideal S256x1 .f32 :=
  shapeCast S256x1 (log (subf (broadcast S256 (Scalar.ofBits .f32 0x00000000#32))
    (multiReduction .add [1] S256 (multiReduction .add [2] S256x20 s 0x00000000#32 reduces_S256x20x20_S256x20 (.inl rfl) rfl)
      0x00000000#32 reduces_S256x20_S256 (.inl rfl) rfl))) shapeCasts_S256_S256x1

/-- A row of a `[5, 20]` table as the body reads it: flattened and unflattened. -/
def row (v : Vec Ideal S1x20 .f32) : FVec Ideal S1x20 .f32 :=
  shapeCast S1x20 (shapeCast S20 v shapeCasts_S1x20_S20) shapeCasts_S20_S1x20

/-- A row of a `[5, 20, 20]` table as the body reads it. -/
def row3 (v : Vec Ideal S1x20x20 .f32) : FVec Ideal S1x20x20 .f32 :=
  shapeCast S1x20x20 (shapeCast S20x20 v shapeCasts_S1x20x20_S20x20) shapeCasts_S20x20_S1x20x20

/-- One node's column of the output block from the block of hidden rows and the node's rows of the six tables. -/
def col (h : FVec Ideal S256x20 .f32) (m0 s0 m1 s1 : Vec Ideal S1x20 .f32) (lw0 lw1 : Vec Ideal S1x20x20 .f32) :
    FVec Ideal S256x1 .f32 :=
  rootv (mixv (addf (tbl (row3 lw0)) (pairs (leafv h (row m0) (row s0))))
    (addf (tbl (row3 lw1)) (pairs (leafv h (row m1) (row s1)))))

section Compositions
variable (x0 : Vec Ideal S256x512 .f32) (x1 : Vec Ideal S20x512 .f32) (x2 : Vec Ideal S1x20 .f32)
  (m0 s0 m1 s1 : Vec Ideal S1x20 .f32) (lw0 lw1 : Vec Ideal S1x20x20 .f32) (h : FVec Ideal S256x20 .f32)

/-- Node 0's composition of payloads is the column function (the hidden block is recomputed inside it). -/
theorem col0_eq : k0_pay6 (k0_pay3 s1) (k0_pay4 x0 x1 x2 m0 s0) (k0_pay5 x0 x1 x2 m1 s1) (Scalar.ofBits .f32 0xBF000000#32) lw0 lw1
    = col (k0_pay2 x0 x1 x2) m0 s0 m1 s1 lw0 lw1 := rfl

/-- Node 1's. -/
theorem col1_eq : k0_pay11 (k0_pay8 h (k0_pay7 m0) s0) (k0_pay9 h m1 s1) (k0_pay10 lw0) lw1 = col h m0 s0 m1 s1 lw0 lw1 := rfl

/-- Node 2's. -/
theorem col2_eq : k0_pay18 (k0_pay17 h (k0_pay13 m1) (k0_pay14 s1) (k0_pay15 h m0 s0) (k0_pay16 s0) lw0 lw1)
    = col h m0 s0 m1 s1 lw0 lw1 := rfl

/-- Node 3's. -/
theorem col3_eq : k0_pay22 (k0_pay19 h m1 s1) (k0_pay20 h m0 s0) (k0_pay21 h m1 s1) lw0 lw1 = col h m0 s0 m1 s1 lw0 lw1 := rfl

/-- The stored block: the four earlier columns and node 4's, side by side. -/
theorem block_eq (c0 c1 c2 c3 : FVec Ideal S256x1 .f32) :
    k0_pay1 c0 c1 c2 c3 (k0_pay29 h (k0_pay23 m0) (k0_pay24 s0) (k0_pay25 m1) (k0_pay26 s1) lw0 lw1)
        (k0_pay31 h (k0_pay23 m0) (k0_pay24 s0) (k0_pay25 m1) (k0_pay26 s1) lw0 lw1)
        (k0_pay32 h (k0_pay23 m0) (k0_pay24 s0) (k0_pay25 m1) (k0_pay26 s1) lw0 lw1)
        (k0_pay33 h (k0_pay23 m0) (k0_pay24 s0) (k0_pay25 m1) (k0_pay26 s1) lw0 lw1)
      = concatenate S256x5 1 [⟨S256x1, c0⟩, ⟨S256x1, c1⟩, ⟨S256x1, c2⟩, ⟨S256x1, c3⟩, ⟨S256x1, col h m0 s0 m1 s1 lw0 lw1⟩]
          concatenates_S256x1_S256x1_S256x1_S256x1_S256x1_S256x5_d1 := rfl

end Compositions

/-! ## The column read at a row -/

section Layout
variable {α : Type}

/-- A `[1, 20]` row laid over 256 rows reads its entry `j` at `(b, j)`. -/
theorem bcast_row (v : S1x20.Idx → α) (b : Fin 256) (j : Fin 20) :
    broadcastTo S256x20 v broadcasts_S1x20_S256x20 (ix2 b j) = v (ix2 0 j) :=
  broadcastTo_apply v _ (ix2 b j) (ix2 0 j) fun a => match a with | ⟨0, _⟩ => rfl | ⟨1, _⟩ => rfl

/-- A `[1, 20, 20]` table laid over 256 rows reads its entry `(j, k)` at `(b, j, k)`. -/
theorem bcast_tbl (v : S1x20x20.Idx → α) (b : Fin 256) (j k : Fin 20) :
    broadcastTo S256x20x20 v broadcasts_S1x20x20_S256x20x20 (ix3 b j k) = v (ix3 0 j k) :=
  broadcastTo_apply v _ (ix3 b j k) (ix3 0 j k) fun a => match a with | ⟨0, _⟩ => rfl | ⟨1, _⟩ => rfl | ⟨2, _⟩ => rfl

/-- A block of rows viewed as columns `[256, 20, 1]` and laid along a new last axis reads `(b, j)` at `(b, j, k)`. -/
theorem bcast_colview (v : S256x20.Idx → α) (b : Fin 256) (j k : Fin 20) :
    broadcastTo S256x20x20 (shapeCast S256x20x1 v shapeCasts_S256x20_S256x20x1) broadcasts_S256x20x1_S256x20x20 (ix3 b j k)
      = v (ix2 b j) := by
  refine (broadcastTo_apply _ _ (ix3 b j k) (ix3 b j (0 : Fin 1)) fun a => match a with
    | ⟨0, _⟩ => rfl | ⟨1, _⟩ => rfl | ⟨2, _⟩ => rfl).trans ?_
  refine shapeCast_apply v _ _ _ ?_
  rw [Shape.rowMajor_val_three, Shape.rowMajor_val_two]
  show b.val * 20 + j.val = (b.val * 20 + j.val) * 1 + 0
  omega

/-- The same block viewed as rows `[256, 1, 20]` and laid along a new middle axis reads `(b, k)` at `(b, j, k)`. -/
theorem bcast_rowview (v : S256x20.Idx → α) (b : Fin 256) (j k : Fin 20) :
    broadcastTo S256x20x20 (shapeCast S256x1x20 v shapeCasts_S256x20_S256x1x20) broadcasts_S256x1x20_S256x20x20 (ix3 b j k)
      = v (ix2 b k) := by
  refine (broadcastTo_apply _ _ (ix3 b j k) (ix3 b (0 : Fin 1) k) fun a => match a with
    | ⟨0, _⟩ => rfl | ⟨1, _⟩ => rfl | ⟨2, _⟩ => rfl).trans ?_
  refine shapeCast_apply v _ _ _ ?_
  rw [Shape.rowMajor_val_three, Shape.rowMajor_val_two]
  show b.val * 20 + k.val = (b.val * 1 + 0) * 20 + k.val
  omega

/-- A vector of 256 entries viewed as a column reads entry `b` at `(b, 0)`. -/
theorem cast_column (v : S256.Idx → α) (b : Fin 256) (u : Fin 1) :
    shapeCast S256x1 v shapeCasts_S256_S256x1 (ix2 b u) = v (ix1 b) := by
  refine shapeCast_apply v _ _ _ ?_
  have hu : u.val = 0 := by omega
  rw [Shape.rowMajor_val_one, Shape.rowMajor_val_two]
  show b.val = b.val * 1 + u.val
  omega

end Layout

/-- The body's reading of a table row changes nothing. -/
theorem row_eq (v : Vec Ideal S1x20 .f32) : row v = v := shapeCast_shapeCast _ _ _
theorem row3_eq (v : Vec Ideal S1x20x20 .f32) : row3 v = v := shapeCast_shapeCast _ _ _

/-- A leaf of the block is the specification's leaf of the hidden unit. -/
theorem leafv_apply (h : FVec Ideal S256x20 .f32) (m s : FVec Ideal S1x20 .f32) (b : Fin 256) (j : Fin 20) :
    leafv h m s (ix2 b j) = Spn.leaf (h (ix2 b j)) (m (ix2 0 j)) (s (ix2 0 j)) := by
  unfold leafv Spn.leaf
  simp only [subf_apply, mulf_apply, divf_apply, broadcast_apply, bcast_row]
  rfl

/-- A product node adds its two leaves. -/
theorem pairs_apply (L : FVec Ideal S256x20 .f32) (b : Fin 256) (j k : Fin 20) :
    pairs L (ix3 b j k) = L (ix2 b j) + L (ix2 b k) := by
  unfold pairs
  rw [addf_apply, bcast_colview, bcast_rowview]

/-- A sum node is the specification's stable log-sum-exp of its two arguments. -/
theorem mixv_apply (a b : FVec Ideal S256x20x20 .f32) (i : S256x20x20.Idx) : mixv a b i = Spn.lae (a i) (b i) := by
  show Scalar.select (FloatOps.cmpf .one (a i - b i) (a i - b i)) (a i + b i)
    (max (a i) (b i) + Ideal.log1p (Ideal.exp (Ideal.ofBits .f32 0x00000000#32 - max (a i - b i) (-(a i - b i))))) = _
  rw [Ideal.cmpf_def, Spn.select_one_self, Ideal.ofBits_zero_f32, Spn.zero_sub_eq_neg]
  rfl

/-- The node's value from the block of sum nodes: the logarithm of the negated sum over all pairs. -/
theorem rootv_apply (s : FVec Ideal S256x20x20 .f32) (b : Fin 256) (u : Fin 1) :
    rootv s (ix2 b u) = Ideal.log (-(∑ j : Fin 20, ∑ k : Fin 20, s (ix3 b j k))) := by
  unfold rootv
  rw [cast_column]
  show Ideal.log (Ideal.ofBits .f32 0x00000000#32 - multiReduction .add [1] S256
    (multiReduction .add [2] S256x20 s 0x00000000#32 reduces_S256x20x20_S256x20 (.inl rfl) rfl)
      0x00000000#32 reduces_S256x20_S256 (.inl rfl) rfl (ix1 b)) = _
  rw [Ideal.ofBits_zero_f32, Spn.zero_sub_eq_neg]
  refine congrArg (fun x => Ideal.log (-x)) ?_
  refine (Ideal.multiReduction_add_single _ 0x00000000#32 reduces_S256x20_S256 (.inl rfl) rfl (ix1 b)).trans ?_
  show (∑ j : Fin 20, _) = _
  refine Finset.sum_congr rfl fun j _ => ?_
  refine (Ideal.multiReduction_add_single s 0x00000000#32 reduces_S256x20x20_S256x20 (.inl rfl) rfl _).trans ?_
  show (∑ k : Fin 20, _) = _
  refine Finset.sum_congr rfl fun k _ => ?_
  refine congrArg s (funext fun a => Fin.ext ?_)
  match a with
  | ⟨0, _⟩ => rfl
  | ⟨1, _⟩ => rfl
  | ⟨2, _⟩ => rfl

/-- A node's column read at row `b`: it is the specification's node value of that row's hidden units and of the node's
    rows of the six tables. -/
theorem col_apply (h : FVec Ideal S256x20 .f32) (m0 s0 m1 s1 : Vec Ideal S1x20 .f32) (lw0 lw1 : Vec Ideal S1x20x20 .f32)
    (b : Fin 256) (u : Fin 1) :
    col h m0 s0 m1 s1 lw0 lw1 (ix2 b u)
      = Spn.yv (fun j => h (ix2 b j)) (fun j => m0 (ix2 0 j)) (fun j => s0 (ix2 0 j)) (fun j => m1 (ix2 0 j))
          (fun j => s1 (ix2 0 j)) (fun j k => lw0 (ix3 0 j k)) (fun j k => lw1 (ix3 0 j k)) := by
  unfold col Spn.yv Spn.node
  rw [rootv_apply, row_eq, row_eq, row_eq, row_eq, row3_eq, row3_eq]
  refine congrArg (fun x => Ideal.log (-x)) ?_
  refine Finset.sum_congr rfl fun j _ => Finset.sum_congr rfl fun k _ => ?_
  rw [mixv_apply, addf_apply, addf_apply, pairs_apply, pairs_apply, leafv_apply, leafv_apply, leafv_apply, leafv_apply]
  unfold tbl
  rw [bcast_tbl, bcast_tbl]

/-! ## The hidden block read at an entry -/

/- The inner product's two operand entries at an output entry and a contraction index, axis by axis. -/
theorem lhs_hidden_0 (i : S256x20.Idx) (q : dot_S256x512_S512x20_S256x20_1_0_0_1_n_n.contr.Idx) :
    (dot_S256x512_S512x20_S256x20_1_0_0_1_n_n.lhsIdx i q 0).val = (i 0).val := by
  unfold DotDims.lhsIdx
  rw [dif_neg (show ¬(0 : Fin S256x512.rank) ∈ dot_S256x512_S512x20_S256x20_1_0_0_1_n_n.lhsBatch by decide),
    dif_pos (show (0 : Fin S256x512.rank) ∈ dot_S256x512_S512x20_S256x20_1_0_0_1_n_n.lhsNonContracting by decide)]
  rfl
theorem lhs_hidden_1 (i : S256x20.Idx) (q : dot_S256x512_S512x20_S256x20_1_0_0_1_n_n.contr.Idx) :
    (dot_S256x512_S512x20_S256x20_1_0_0_1_n_n.lhsIdx i q 1).val = (q ⟨0, by decide⟩).val :=
  dot_S256x512_S512x20_S256x20_1_0_0_1_n_n.lhsIdx_val_of_single rfl i q
theorem rhs_hidden_0 (i : S256x20.Idx) (q : dot_S256x512_S512x20_S256x20_1_0_0_1_n_n.contr.Idx) :
    (dot_S256x512_S512x20_S256x20_1_0_0_1_n_n.rhsIdx i q 0).val = (q ⟨0, by decide⟩).val :=
  dot_S256x512_S512x20_S256x20_1_0_0_1_n_n.rhsIdx_val_of_single rfl i q
theorem rhs_hidden_1 (i : S256x20.Idx) (q : dot_S256x512_S512x20_S256x20_1_0_0_1_n_n.contr.Idx) :
    (dot_S256x512_S512x20_S256x20_1_0_0_1_n_n.rhsIdx i q 1).val = (i 1).val := by
  unfold DotDims.rhsIdx
  rw [dif_neg (show ¬(1 : Fin S512x20.rank) ∈ dot_S256x512_S512x20_S256x20_1_0_0_1_n_n.rhsBatch by decide),
    dif_pos (show (1 : Fin S512x20.rank) ∈ dot_S256x512_S512x20_S256x20_1_0_0_1_n_n.rhsNonContracting by decide)]
  rfl

/-- The hidden block's entry `(r, j)`: the inner product of row `r` of the block of inputs with row `j` of the weights, the
    bias added, and the relu of that. -/
theorem hidden_apply (v0 : Vec Ideal S256x512 .f32) (v2 : Vec Ideal S20x512 .f32) (v6 : Vec Ideal S1x20 .f32)
    (r : Fin 256) (j : Fin 20) :
    k0_pay2 v0 v2 v6 (ix2 r j) = max ((∑ k : Fin 512, v0 (ix2 r k) * v2 (ix2 j k)) + v6 (ix2 0 j)) 0 := by
  unfold k0_pay2
  show max (FloatOps.matmul (F := Ideal) dot_S256x512_S512x20_S256x20_1_0_0_1_n_n none
      (truncf (F := Ideal) .bf16 (v0 : FVec Ideal S256x512 .f32) bitsLt_bf16_f32)
      (transpose S512x20 [1, 0] (truncf (F := Ideal) .bf16 (v2 : FVec Ideal S20x512 .f32) bitsLt_bf16_f32) transposes_S20x512_p1_0_S512x20)
      (constant (F := Ideal) S256x20 .f32 0x00000000#32) (ix2 r j)
    + broadcastTo S256x20 (shapeCast S1x20 v6 shapeCasts_S1x20_S1x20) broadcasts_S1x20_S256x20 (ix2 r j))
    (Ideal.ofBits .f32 0x00000000#32) = _
  rw [Ideal.matmul_constant_zero_apply, bcast_row, shapeCast_self, Ideal.ofBits_zero_f32,
    ← Equiv.sum_comp (contrEquiv1 dot_S256x512_S512x20_S256x20_1_0_0_1_n_n 512 rfl rfl).symm]
  refine congrArg (fun x => max (x + v6 (ix2 0 j)) 0) ?_
  refine Finset.sum_congr rfl fun k _ => ?_
  have hk := contrEquiv1_symm_val dot_S256x512_S512x20_S256x20_1_0_0_1_n_n 512 rfl rfl k
  have el : dot_S256x512_S512x20_S256x20_1_0_0_1_n_n.lhsIdx (ix2 r j)
      ((contrEquiv1 dot_S256x512_S512x20_S256x20_1_0_0_1_n_n 512 rfl rfl).symm k) = ix2 r k := funext fun a => Fin.ext (by
    match a with
    | ⟨0, _⟩ => exact lhs_hidden_0 _ _
    | ⟨1, _⟩ => exact (lhs_hidden_1 _ _).trans hk)
  have er : dot_S256x512_S512x20_S256x20_1_0_0_1_n_n.rhsIdx (ix2 r j)
      ((contrEquiv1 dot_S256x512_S512x20_S256x20_1_0_0_1_n_n 512 rfl rfl).symm k) = ix2 k j := funext fun a => Fin.ext (by
    match a with
    | ⟨0, _⟩ => exact (rhs_hidden_0 _ _).trans hk
    | ⟨1, _⟩ => exact rhs_hidden_1 _ _)
  rw [el, er, transpose_ix2_apply]
  rfl

/-! ## The stored block read at an entry -/

section Stored
variable {α : Type}

/-- Five columns side by side read, at `(r, o)`, column `o` at row `r`. -/
theorem concat5_apply (c0 c1 c2 c3 c4 : S256x1.Idx → α) (r : Fin 256) (o : Fin 5) (x : S256x1.Idx → α)
    (hx : [c0, c1, c2, c3, c4][o.val]'o.isLt = x) :
    concatenate S256x5 1 [⟨S256x1, c0⟩, ⟨S256x1, c1⟩, ⟨S256x1, c2⟩, ⟨S256x1, c3⟩, ⟨S256x1, c4⟩]
        concatenates_S256x1_S256x1_S256x1_S256x1_S256x1_S256x5_d1 (ix2 r o) = x (ix2 r 0) := by
  subst hx
  have hi : ∀ b : Fin S256x1.rank, b.cast (rfl : S256x1.rank = S256x5.rank) ≠ (1 : Fin 2) →
      ((ix2 r (0 : Fin 1) : S256x1.Idx) b).val = ((ix2 r o : S256x5.Idx) (b.cast rfl)).val := fun b hb =>
    match b, hb with
    | ⟨0, _⟩, _ => rfl
    | ⟨1, _⟩, hb => absurd rfl hb
  match o with
  | ⟨0, _⟩ =>
    refine concatenate_apply_piece (t := S256x5) 1 _ _ _ 0 ?_ S256x1 c0 ?_ (rfl : S256x1.rank = S256x5.rank) 0 ?_ (ix2 r 0) ?_ ?_
    · show _ < 5; omega
    · rfl
    · rfl
    · exact hi
    · rfl
  | ⟨1, _⟩ =>
    refine concatenate_apply_piece (t := S256x5) 1 _ _ _ 1 ?_ S256x1 c1 ?_ (rfl : S256x1.rank = S256x5.rank) 1 ?_ (ix2 r 0) ?_ ?_
    · show _ < 5; omega
    · rfl
    · rfl
    · exact hi
    · rfl
  | ⟨2, _⟩ =>
    refine concatenate_apply_piece (t := S256x5) 1 _ _ _ 2 ?_ S256x1 c2 ?_ (rfl : S256x1.rank = S256x5.rank) 2 ?_ (ix2 r 0) ?_ ?_
    · show _ < 5; omega
    · rfl
    · rfl
    · exact hi
    · rfl
  | ⟨3, _⟩ =>
    refine concatenate_apply_piece (t := S256x5) 1 _ _ _ 3 ?_ S256x1 c3 ?_ (rfl : S256x1.rank = S256x5.rank) 3 ?_ (ix2 r 0) ?_ ?_
    · show _ < 5; omega
    · rfl
    · rfl
    · exact hi
    · rfl
  | ⟨4, _⟩ =>
    refine concatenate_apply_piece (t := S256x5) 1 _ _ _ 4 ?_ S256x1 c4 ?_ (rfl : S256x1.rank = S256x5.rank) 4 ?_ (ix2 r 0) ?_ ?_
    · show _ < 5; omega
    · rfl
    · rfl
    · exact hi
    · rfl

end Stored

section Rows
variable {Val : EltTy → Type} {e : EltTy}

/-- A load of one row of a `[5, 20]` table reads that row. -/
theorem ld_row (x : S5x20.Idx → Val e) (off : Fin 2 → Nat) (inb : ∀ a, off a + S1x20.size a ≤ S5x20.size a) (o : Fin 5)
    (h0 : off 0 = o.val) (h1 : off 1 = 0) (j : Fin 20) :
    View.ld x (Rect.unit (s := S5x20) off S1x20.size inb) (ix2 0 j) = x (ix2 o j) := by
  show x _ = x _
  refine congrArg x (funext fun a => Fin.ext ?_)
  match a with
  | ⟨0, _⟩ => show off 0 + 1 * 0 = o.val; omega
  | ⟨1, _⟩ => show off 1 + 1 * j.val = j.val; omega

/-- A load of one slab of a `[5, 20, 20]` table reads that slab. -/
theorem ld_slab (x : S5x20x20.Idx → Val e) (off : Fin 3 → Nat) (inb : ∀ a, off a + S1x20x20.size a ≤ S5x20x20.size a)
    (o : Fin 5) (h0 : off 0 = o.val) (h1 : off 1 = 0) (h2 : off 2 = 0) (j k : Fin 20) :
    View.ld x (Rect.unit (s := S5x20x20) off S1x20x20.size inb) (ix3 0 j k) = x (ix3 o j k) := by
  show x _ = x _
  refine congrArg x (funext fun a => Fin.ext ?_)
  match a with
  | ⟨0, _⟩ => show off 0 + 1 * 0 = o.val; omega
  | ⟨1, _⟩ => show off 1 + 1 * j.val = j.val; omega
  | ⟨2, _⟩ => show off 2 + 1 * k.val = k.val; omega

end Rows

theorem hz : (![0, 0] : Fin 2 → Nat) = fun _ => 0 := funext fun a => by fin_cases a <;> rfl

/-- The block a grid point stores, read at `(r, o)`: node `o`'s value of the hidden units of row `r` of the staged block
    of inputs. -/
theorem out_apply (x0 : Vec Ideal S256x512 .f32) (x1 : Vec Ideal S20x512 .f32) (x2 : Vec Ideal S1x20 .f32)
    (x3 x4 x5 x6 : Vec Ideal S5x20 .f32) (x7 x8 : Vec Ideal S5x20x20 .f32) (r : Fin 256) (o : Fin 5) :
    out0_9 x0 x1 x2 x3 x4 x5 x6 x7 x8 (ix2 r o)
      = Spn.yv (fun j => max ((∑ k : Fin 512, x0 (ix2 r k) * x1 (ix2 j k)) + x2 (ix2 0 j)) 0)
          (fun j => x3 (ix2 o j)) (fun j => x4 (ix2 o j)) (fun j => x5 (ix2 o j)) (fun j => x6 (ix2 o j))
          (fun j k => x7 (ix3 o j k)) (fun j k => x8 (ix3 o j k)) := by
  unfold out0_9
  rw [View.canon_unit_zero hz]
  simp only [View.ld_unit_zero (S := S256x512) hz, View.ld_unit_zero (S := S20x512) hz, View.ld_unit_zero (S := S1x20) hz]
  rw [block_eq, col0_eq, col1_eq, col2_eq, col3_eq]
  have hcol : ∀ (o' : Fin 5) (m0 s0 m1 s1 : Vec Ideal S1x20 .f32) (lw0 lw1 : Vec Ideal S1x20x20 .f32),
      (∀ j, m0 (ix2 0 j) = x3 (ix2 o' j)) → (∀ j, s0 (ix2 0 j) = x4 (ix2 o' j)) → (∀ j, m1 (ix2 0 j) = x5 (ix2 o' j)) →
      (∀ j, s1 (ix2 0 j) = x6 (ix2 o' j)) → (∀ j k, lw0 (ix3 0 j k) = x7 (ix3 o' j k)) →
      (∀ j k, lw1 (ix3 0 j k) = x8 (ix3 o' j k)) →
      col (k0_pay2 x0 x1 x2) m0 s0 m1 s1 lw0 lw1 (ix2 r 0)
        = Spn.yv (fun j => max ((∑ k : Fin 512, x0 (ix2 r k) * x1 (ix2 j k)) + x2 (ix2 0 j)) 0)
          (fun j => x3 (ix2 o' j)) (fun j => x4 (ix2 o' j)) (fun j => x5 (ix2 o' j)) (fun j => x6 (ix2 o' j))
          (fun j k => x7 (ix3 o' j k)) (fun j k => x8 (ix3 o' j k)) := by
    intro o' m0 s0 m1 s1 lw0 lw1 h3 h4 h5 h6 h7 h8
    rw [col_apply]
    simp only [hidden_apply, h3, h4, h5, h6, h7, h8]
  match o with
  | ⟨0, _⟩ =>
    refine (concat5_apply _ _ _ _ _ r 0 _ rfl).trans (hcol 0 _ _ _ _ _ _ ?_ ?_ ?_ ?_ ?_ ?_)
    · exact fun j => ld_row x3 _ _ 0 rfl rfl j
    · exact fun j => ld_row x4 _ _ 0 rfl rfl j
    · exact fun j => ld_row x5 _ _ 0 rfl rfl j
    · exact fun j => ld_row x6 _ _ 0 rfl rfl j
    · exact fun j k => ld_slab x7 _ _ 0 rfl rfl rfl j k
    · exact fun j k => ld_slab x8 _ _ 0 rfl rfl rfl j k
  | ⟨1, _⟩ =>
    refine (concat5_apply _ _ _ _ _ r 1 _ rfl).trans (hcol 1 _ _ _ _ _ _ ?_ ?_ ?_ ?_ ?_ ?_)
    · exact fun j => ld_row x3 _ _ 1 rfl rfl j
    · exact fun j => ld_row x4 _ _ 1 rfl rfl j
    · exact fun j => ld_row x5 _ _ 1 rfl rfl j
    · exact fun j => ld_row x6 _ _ 1 rfl rfl j
    · exact fun j k => ld_slab x7 _ _ 1 rfl rfl rfl j k
    · exact fun j k => ld_slab x8 _ _ 1 rfl rfl rfl j k
  | ⟨2, _⟩ =>
    refine (concat5_apply _ _ _ _ _ r 2 _ rfl).trans (hcol 2 _ _ _ _ _ _ ?_ ?_ ?_ ?_ ?_ ?_)
    · exact fun j => ld_row x3 _ _ 2 rfl rfl j
    · exact fun j => ld_row x4 _ _ 2 rfl rfl j
    · exact fun j => ld_row x5 _ _ 2 rfl rfl j
    · exact fun j => ld_row x6 _ _ 2 rfl rfl j
    · exact fun j k => ld_slab x7 _ _ 2 rfl rfl rfl j k
    · exact fun j k => ld_slab x8 _ _ 2 rfl rfl rfl j k
  | ⟨3, _⟩ =>
    refine (concat5_apply _ _ _ _ _ r 3 _ rfl).trans (hcol 3 _ _ _ _ _ _ ?_ ?_ ?_ ?_ ?_ ?_)
    · exact fun j => ld_row x3 _ _ 3 rfl rfl j
    · exact fun j => ld_row x4 _ _ 3 rfl rfl j
    · exact fun j => ld_row x5 _ _ 3 rfl rfl j
    · exact fun j => ld_row x6 _ _ 3 rfl rfl j
    · exact fun j k => ld_slab x7 _ _ 3 rfl rfl rfl j k
    · exact fun j k => ld_slab x8 _ _ 3 rfl rfl rfl j k
  | ⟨4, _⟩ =>
    refine (concat5_apply _ _ _ _ _ r 4 _ rfl).trans (hcol 4 _ _ _ _ _ _ ?_ ?_ ?_ ?_ ?_ ?_)
    · exact fun j => ld_row x3 _ _ 4 rfl rfl j
    · exact fun j => ld_row x4 _ _ 4 rfl rfl j
    · exact fun j => ld_row x5 _ _ 4 rfl rfl j
    · exact fun j => ld_row x6 _ _ 4 rfl rfl j
    · exact fun j k => ld_slab x7 _ _ 4 rfl rfl rfl j k
    · exact fun j k => ld_slab x8 _ _ 4 rfl rfl rfl j k

/-! ## From the blocks to the array -/

/-- The windows' block indices, decided once over the grid: the inputs' and the output's row blocks move with the point,
    every table is one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = 0 ∧ win0_7.index t (1 : Fin 3) = 0 ∧ win0_7.index t (2 : Fin 3) = 0
    ∧ win0_8.index t (0 : Fin 3) = 0 ∧ win0_8.index t (1 : Fin 3) = 0 ∧ win0_8.index t (2 : Fin 3) = 0
    ∧ win0_9.index t (0 : Fin 2) = t.val ∧ win0_9.index t (1 : Fin 2) = 0 :=
  (by decide +kernel : ∀ t : Fin grid0.N, _)

section Blocks
variable (c : Dev nD) (t : Fin cfg0.N)

/-- The staged block of inputs at point `t` is rows `256 t … 256 t + 255` of the inputs. -/
theorem xblk_apply (r : Fin 256) (k : Fin 512) (R : Fin 32768) (hR : R.val = 256 * t.val + r.val) :
    (iblk0 V c 0 t : Vec Ideal S256x512 .f32) (ix2 r k) = (V c main_arg0 : S32768x512.Idx → EReal) (ix2 R k) := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 256 + 1 * r.val = R.val; rw [e0, hR]; omega
  | ⟨1, _⟩ => show win0_0.index t (1 : Fin 2) * 512 + 1 * k.val = k.val; rw [e1]; omega

/-- The staged weights are the weights: the window is the whole array at every point. -/
theorem wblk_apply (p : Fin 20) (q : Fin 512) :
    (iblk0 V c 1 t : Vec Ideal S20x512 .f32) (ix2 p q) = (V c main_arg1 : S20x512.Idx → EReal) (ix2 p q) := by
  have h := idx_facts t
  unfold iblk0
  rw [View.read_apply]
  show V c main_arg1 _ = V c main_arg1 _
  congr 1
  funext a
  apply Fin.ext
  match a with
  | ⟨0, _⟩ => show win0_1.index t (0 : Fin 2) * 20 + 1 * p.val = p.val; rw [h.2.2.1]; omega
  | ⟨1, _⟩ => show win0_1.index t (1 : Fin 2) * 512 + 1 * q.val = q.val; rw [h.2.2.2.1]; omega

/-- The staged bias row is the bias row. -/
theorem bblk_apply (p : Fin 1) (q : Fin 20) :
    (iblk0 V c 2 t : Vec Ideal S1x20 .f32) (ix2 p q) = (V c main_v0 : S1x20.Idx → EReal) (ix2 p q) := by
  have h := idx_facts t
  unfold iblk0
  rw [View.read_apply]
  show V c main_v0 _ = V c main_v0 _
  congr 1
  funext a
  apply Fin.ext
  match a with
  | ⟨0, _⟩ => show win0_2.index t (0 : Fin 2) * 1 + 1 * p.val = p.val; rw [h.2.2.2.2.1]; omega
  | ⟨1, _⟩ => show win0_2.index t (1 : Fin 2) * 20 + 1 * q.val = q.val; rw [h.2.2.2.2.2.1]; omega

/-- The staged first means are the first means. -/
theorem m0blk_apply (p : Fin 5) (q : Fin 20) :
    (iblk0 V c 3 t : Vec Ideal S5x20 .f32) (ix2 p q) = (V c main_arg3 : S5x20.Idx → EReal) (ix2 p q) := by
  have h := idx_facts t
  unfold iblk0
  rw [View.read_apply]
  show V c main_arg3 _ = V c main_arg3 _
  congr 1
  funext a
  apply Fin.ext
  match a with
  | ⟨0, _⟩ => show win0_3.index t (0 : Fin 2) * 5 + 1 * p.val = p.val; rw [h.2.2.2.2.2.2.1]; omega
  | ⟨1, _⟩ => show win0_3.index t (1 : Fin 2) * 20 + 1 * q.val = q.val; rw [h.2.2.2.2.2.2.2.1]; omega

/-- The staged first deviations are the first deviations. -/
theorem s0blk_apply (p : Fin 5) (q : Fin 20) :
    (iblk0 V c 4 t : Vec Ideal S5x20 .f32) (ix2 p q) = (V c main_arg4 : S5x20.Idx → EReal) (ix2 p q) := by
  have h := idx_facts t
  unfold iblk0
  rw [View.read_apply]
  show V c main_arg4 _ = V c main_arg4 _
  congr 1
  funext a
  apply Fin.ext
  match a with
  | ⟨0, _⟩ => show win0_4.index t (0 : Fin 2) * 5 + 1 * p.val = p.val; rw [h.2.2.2.2.2.2.2.2.1]; omega
  | ⟨1, _⟩ => show win0_4.index t (1 : Fin 2) * 20 + 1 * q.val = q.val; rw [h.2.2.2.2.2.2.2.2.2.1]; omega

/-- The staged second means are the second means. -/
theorem m1blk_apply (p : Fin 5) (q : Fin 20) :
    (iblk0 V c 5 t : Vec Ideal S5x20 .f32) (ix2 p q) = (V c main_arg5 : S5x20.Idx → EReal) (ix2 p q) := by
  have h := idx_facts t
  unfold iblk0
  rw [View.read_apply]
  show V c main_arg5 _ = V c main_arg5 _
  congr 1
  funext a
  apply Fin.ext
  match a with
  | ⟨0, _⟩ => show win0_5.index t (0 : Fin 2) * 5 + 1 * p.val = p.val; rw [h.2.2.2.2.2.2.2.2.2.2.1]; omega
  | ⟨1, _⟩ => show win0_5.index t (1 : Fin 2) * 20 + 1 * q.val = q.val; rw [h.2.2.2.2.2.2.2.2.2.2.2.1]; omega

/-- The staged second deviations are the second deviations. -/
theorem s1blk_apply (p : Fin 5) (q : Fin 20) :
    (iblk0 V c 6 t : Vec Ideal S5x20 .f32) (ix2 p q) = (V c main_arg6 : S5x20.Idx → EReal) (ix2 p q) := by
  have h := idx_facts t
  unfold iblk0
  rw [View.read_apply]
  show V c main_arg6 _ = V c main_arg6 _
  congr 1
  funext a
  apply Fin.ext
  match a with
  | ⟨0, _⟩ => show win0_6.index t (0 : Fin 2) * 5 + 1 * p.val = p.val; rw [h.2.2.2.2.2.2.2.2.2.2.2.2.1]; omega
  | ⟨1, _⟩ => show win0_6.index t (1 : Fin 2) * 20 + 1 * q.val = q.val; rw [h.2.2.2.2.2.2.2.2.2.2.2.2.2.1]; omega

/-- The staged first log-weights are the first log-weights. -/
theorem lw0blk_apply (o : Fin 5) (p q : Fin 20) :
    (iblk0 V c 7 t : Vec Ideal S5x20x20 .f32) (ix3 o p q) = (V c main_v2 : S5x20x20.Idx → EReal) (ix3 o p q) := by
  have h := idx_facts t
  unfold iblk0
  rw [View.read_apply]
  show V c main_v2 _ = V c main_v2 _
  congr 1
  funext a
  apply Fin.ext
  match a with
  | ⟨0, _⟩ => show win0_7.index t (0 : Fin 3) * 5 + 1 * o.val = o.val; rw [h.2.2.2.2.2.2.2.2.2.2.2.2.2.2.1]; omega
  | ⟨1, _⟩ => show win0_7.index t (1 : Fin 3) * 20 + 1 * p.val = p.val; rw [h.2.2.2.2.2.2.2.2.2.2.2.2.2.2.2.1]; omega
  | ⟨2, _⟩ => show win0_7.index t (2 : Fin 3) * 20 + 1 * q.val = q.val; rw [h.2.2.2.2.2.2.2.2.2.2.2.2.2.2.2.2.1]; omega

/-- The staged second log-weights are the second log-weights. -/
theorem lw1blk_apply (o : Fin 5) (p q : Fin 20) :
    (iblk0 V c 8 t : Vec Ideal S5x20x20 .f32) (ix3 o p q) = (V c main_v4 : S5x20x20.Idx → EReal) (ix3 o p q) := by
  have h := idx_facts t
  unfold iblk0
  rw [View.read_apply]
  show V c main_v4 _ = V c main_v4 _
  congr 1
  funext a
  apply Fin.ext
  match a with
  | ⟨0, _⟩ => show win0_8.index t (0 : Fin 3) * 5 + 1 * o.val = o.val; rw [h.2.2.2.2.2.2.2.2.2.2.2.2.2.2.2.2.2.1]; omega
  | ⟨1, _⟩ => show win0_8.index t (1 : Fin 3) * 20 + 1 * p.val = p.val; rw [h.2.2.2.2.2.2.2.2.2.2.2.2.2.2.2.2.2.2.1]; omega
  | ⟨2, _⟩ => show win0_8.index t (2 : Fin 3) * 20 + 1 * q.val = q.val; rw [h.2.2.2.2.2.2.2.2.2.2.2.2.2.2.2.2.2.2.2.1]; omega

/-- The block that grid point `t` writes to the output array is rows `256 t … 256 t + 255` of the node values of the arrays
    the region found at entry. -/
theorem flushed_eq :
    (dat0 V c).flushed 9 t = ((cfg0.win 9).blk t).view.read (Elt Ideal)
      (Y0 (V c main_arg0) (V c main_arg1) (V c main_v0) (V c main_arg3) (V c main_arg4) (V c main_arg5) (V c main_arg6)
        (V c main_v2) (V c main_v4)) := by
  show (cfg0.win 9).cut (grid0.coords t) ((dat0 V c).after 9 t) = _
  rw [after0_9]
  funext y
  obtain ⟨r, o, rfl⟩ : ∃ (r : Fin 256) (o : Fin 5), y = ix2 r o := ⟨y 0, y 1, eq_ix2 y⟩
  refine (out_apply (iblk0 V c 0 t) (iblk0 V c 1 t) (iblk0 V c 2 t) (iblk0 V c 3 t) (iblk0 V c 4 t) (iblk0 V c 5 t)
    (iblk0 V c 6 t) (iblk0 V c 7 t) (iblk0 V c 8 t) r o).trans ?_
  rw [View.read_apply]
  show _ = Y0 (V c main_arg0) (V c main_arg1) (V c main_v0) (V c main_arg3) (V c main_arg4) (V c main_arg5) (V c main_arg6)
    (V c main_v2) (V c main_v4) (((cfg0.win 9).blk t).view.emb (ix2 r o))
  have hN : cfg0.N = 128 := N_0
  have ht : t.val < 128 := hN ▸ t.isLt
  have e0 := (idx_facts t).2.2.2.2.2.2.2.2.2.2.2.2.2.2.2.2.2.2.2.2.1
  have e1 := (idx_facts t).2.2.2.2.2.2.2.2.2.2.2.2.2.2.2.2.2.2.2.2.2
  have hy : ((cfg0.win 9).blk t).view.emb (ix2 r o) = (ix2 ⟨256 * t.val + r.val, by omega⟩ o : S32768x5.Idx) := by
    funext a
    apply Fin.ext
    match a with
    | ⟨0, _⟩ => show win0_9.index t (0 : Fin 2) * 256 + 1 * r.val = 256 * t.val + r.val; rw [e0]; omega
    | ⟨1, _⟩ => show win0_9.index t (1 : Fin 2) * 5 + 1 * o.val = o.val; rw [e1]; omega
  rw [hy]
  unfold Y0 Spn.hid
  simp only [xblk_apply V c t _ _ ⟨256 * t.val + r.val, by omega⟩ rfl, wblk_apply, bblk_apply, m0blk_apply, s0blk_apply,
    m1blk_apply, s1blk_apply, lw0blk_apply, lw1blk_apply]

/-- An entry of the output array is in point `t`'s block iff each coordinate is in the block's range on its axis. -/
theorem mem_blk (i : S32768x5.Idx) :
    i ∈ ((cfg0.win 9).blk t).view.set ↔ ∀ a : Fin 2, win0_9.index t a * S256x5.size a ≤ (i a).val
      ∧ (i a).val < win0_9.index t a * S256x5.size a + S256x5.size a := by
  show i ∈ ((View.whole main_v5).slice (win0_9.rect t)).set ↔ _
  rw [View.set_slice_whole, Rect.mem_set_unit]
  exact Iff.rfl

end Blocks

/-- Every row of the output array lies in the block of the point numbered by the row's quotient by 256. -/
theorem cover (i : S32768x5.Idx) :
    ∃ t : Fin cfg0.N, (cfg0.win 9).flush t = true ∧ i ∈ ((cfg0.win 9).blk t).view.set := by
  have hN : cfg0.N = 128 := N_0
  have hi0 : (i 0).val < 32768 := (i 0).isLt
  have hi1 : (i 1).val < 5 := (i 1).isLt
  let t : Fin cfg0.N := ⟨(i 0).val / 256, by rw [hN]; omega⟩
  have e0 : win0_9.index t (0 : Fin 2) = (i 0).val / 256 := (idx_facts t).2.2.2.2.2.2.2.2.2.2.2.2.2.2.2.2.2.2.2.2.1
  have e1 : win0_9.index t (1 : Fin 2) = 0 := (idx_facts t).2.2.2.2.2.2.2.2.2.2.2.2.2.2.2.2.2.2.2.2.2
  refine ⟨t, flush0_9 t, ?_⟩
  rw [mem_blk]
  intro a
  match a with
  | ⟨0, _⟩ =>
    show win0_9.index t (0 : Fin 2) * 256 ≤ (i 0).val ∧ (i 0).val < win0_9.index t (0 : Fin 2) * 256 + 256
    rw [e0]; omega
  | ⟨1, _⟩ =>
    show win0_9.index t (1 : Fin 2) * 5 ≤ (i 1).val ∧ (i 1).val < win0_9.index t (1 : Fin 2) * 5 + 5
    rw [e1]; omega

/-- After the region's 128 grid points the output array (window 9, `32768 × 5`) holds the node values of the arrays
    the region found at entry. -/
theorem final (c : Dev nD) :
    (dat0 (F := Ideal) V c).arrAt 9 cfg0.N
      = Y0 (V c main_arg0) (V c main_arg1) (V c main_v0) (V c main_arg3) (V c main_arg4) (V c main_arg5) (V c main_arg6)
          (V c main_v2) (V c main_v4) :=
  (dat0 V c).arrAt_eq_of_cover 9 _ (fun t _ => flushed_eq V c t) cover

end Cert.KernelIdeal.Region0

end
-- ==== Proof.KRegion1.lean ====
/-
  Region 1 of the kernel program, read as a value: whatever the arrays hold when the region is entered, its output array
  ends holding the results `KSpec.Out1` of them.

  The region walks the 32768 rows in 16 blocks of 2048. At a grid point its body sees one block of node values
  (`2048 × 5`), the five last weights (`1 × 5`), the last bias and the batch-wide maximum (`1 × 1` each), and
  writes, for every row `r` of the block, the logistic function of `∑ o, (M - y r o) * w2 o + b2`. First the body's
  result is read at a row of the block; then the blocks are put side by side: block `t` of the node values is rows
  `2048 t … 2048 t + 2047` of the array, the three small operands are whole at every point, and the row `r` of
  the output is written by point `r / 2048`.
-/
import proofs.«121981_j12068858101769_1_alg».proof.Proof.Gen.KernelIdeal.Frame
import proofs.«121981_j12068858101769_1_alg».proof.Proof.KSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.KernelIdeal.KSpec
open Idealize.ShloMosaic Idealize.ShloMosaic.TcCoe Idealize.ShloMosaic.ValueIdx Idealize.SL.Sem
open Idealize.ShloMosaic.Pipeline (Dat Cfg Window)

/-! ## The body's result at a row of the block -/

/-- A vector of `a` entries laid out as a column `[a, 1]` reads, at `(i, u)`, the entry `i`: both positions are
    `i` in row-major order. -/
theorem column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- The sum along the five lanes of a `2048 × 5` vector, started from the zero word, read at row `r`: the sum of
    the row's five entries. -/
theorem laneSum_apply (src : FVec Ideal S2048x5 .f32) (h : S2048x5.Reduces [1] S2048) (hφ : FKind.Formats .f32)
    (hacc : (0x00000000#32 : BitVec 32) = 0x00000000#32) (r : Fin 2048) :
    multiReduction .add [1] S2048 src 0x00000000#32 h hφ hacc (ix1 r) = ∑ o : Fin 5, src (ix2 r o) := by
  refine (Ideal.multiReduction_add_single src 0x00000000#32 h hφ hacc (ix1 r)).trans ?_
  refine Finset.sum_congr rfl fun o _ => congrArg src ?_
  funext c
  match c with
  | ⟨0, _⟩ => rfl
  | ⟨1, _⟩ => rfl

/-- Row `r` of the body's result: with `M` the one entry of `v5` and `b2` the one entry of `v3`, the logistic
    function of `∑ o, (M - v0 r o) * v2 0 o + b2`. The maximum is spread over the block, the weights' one row over
    the 2048 rows, the bias over the column; the lane sum becomes a column before the bias is added. -/
theorem payload_apply (v0 : Vec Ideal S2048x5 .f32) (v2 : Vec Ideal S1x5 .f32) (v3 : Vec Ideal S1x1 .f32)
    (v5 : Vec Ideal S1x1 .f32) (r : Fin 2048) :
    k1_pay1 v0 v2 v3 v5 (ix2 r 0)
      = Spn.outv (fun o => v0 (ix2 r o)) (v5 (ix2 0 0)) (fun o => v2 (ix2 0 o)) (v3 (ix2 0 0)) := by
  unfold k1_pay1
  show FloatOps.logistic (addf _ _ (ix2 r 0)) = _
  rw [Ideal.logistic_def, addf_apply, column_apply, laneSum_apply, broadcastTo_1b_ab_apply, shapeCast_self,
    shapeCast_self]
  have e : extractAt ![0, 0] v5 inpos_S1x1_p0_0 = v5 (ix2 0 0) := by
    unfold extractAt
    refine congrArg v5 (funext fun c => ?_)
    match c with
    | ⟨0, _⟩ => rfl
    | ⟨1, _⟩ => rfl
  unfold Spn.outv
  refine congrArg Ideal.logistic (congrArg (· + v3 (ix2 0 0)) (Finset.sum_congr rfl fun o _ => ?_))
  rw [mulf_apply, subf_apply, broadcast_apply, broadcastTo_1b_ab_apply, e]

/-- The same at any index of the `2048 × 1` result: its second coordinate can only be `0`. -/
theorem payload_read (x0 : Vec Ideal S2048x5 .f32) (x1 : Vec Ideal S1x5 .f32) (x2 x3 : Vec Ideal S1x1 .f32)
    (j : S2048x1.Idx) :
    k1_pay1 x0 x1 x2 x3 j
      = Spn.outv (fun o => x0 (ix2 (j 0) o)) (x3 (ix2 0 0)) (fun o => x1 (ix2 0 o)) (x2 (ix2 0 0)) := by
  obtain ⟨r, u, rfl⟩ : ∃ (r : Fin 2048) (u : Fin 1), j = ix2 r u := ⟨j 0, j 1, eq_ix2 j⟩
  obtain rfl : u = 0 := Subsingleton.elim _ _
  exact payload_apply x0 x1 x2 x3 r

/-! ## From the blocks to the array -/

variable (V : (c : Dev nD) → (b : Ref sig .tc) → Buf (Elt Ideal) ((c : Thread nD τ).loc b))

/-- Every access of the body starts at the corner of its buffer. -/
theorem corner_eq : (![0, 0] : Fin 2 → Nat) = fun _ => 0 := funext fun a => by fin_cases a <;> rfl

/-- Where the blocks sit, point by point: the node values' block has the output block's row index and column
    index `0`; the weights, the bias and the maximum are always their one block; the output's block at point `t`
    is block `(t, 0)`. -/
theorem block_index : ∀ t : Fin cfg1.N,
    win1_0.index t (0 : Fin 2) = win1_4.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point `t` writes back is block `t` of `Out1` of the arrays the region found: row `r` of the node
    values' block is row `2048 t + r` of the array, which is the row of the output the entry `r` of the block goes
    to, and the small operands are read whole. -/
theorem written_eq (c : Dev nD) (t : Fin cfg1.N) :
    (dat1 V c).flushed 4 t = ((cfg1.win 4).blk t).view.read (Elt Ideal)
      (Out1 (V c main_v5) (V c main_arg8) (V c main_v8) (V c main_v7)) := by
  show (cfg1.win 4).cut (grid1.coords t) ((dat1 V c).after 4 t) = _
  rw [after1_4]
  unfold out1_4
  rw [View.canon_unit_zero corner_eq]
  simp only [View.ld_unit_zero (S := S2048x5) corner_eq, View.ld_unit_zero (S := S1x5) corner_eq,
    View.ld_unit_zero (S := S1x1) corner_eq]
  funext j
  obtain ⟨e00, e01, e10, e11, e20, e21, e30, e31, e40, e41⟩ := block_index t
  refine (payload_read (iblk1 V c 0 t) (iblk1 V c 1 t) (iblk1 V c 2 t) (iblk1 V c 3 t) j).trans ?_
  show Spn.outv (fun o => V c main_v5 (((cfg1.win 0).blk t).view.emb (ix2 (j 0) o)))
      (V c main_v7 (((cfg1.win 3).blk t).view.emb (ix2 0 0)))
      (fun o => V c main_arg8 (((cfg1.win 1).blk t).view.emb (ix2 0 o)))
      (V c main_v8 (((cfg1.win 2).blk t).view.emb (ix2 0 0)))
    = Spn.outv (fun o => V c main_v5 (ix2 ((((cfg1.win 4).blk t).view.emb j) 0) o)) (V c main_v7 (ix2 0 0))
      (fun o => V c main_arg8 (ix2 0 o)) (V c main_v8 (ix2 0 0))
  have h0 : ∀ o : Fin 5,
      ((cfg1.win 0).blk t).view.emb (ix2 (j 0) o) = ix2 ((((cfg1.win 4).blk t).view.emb j) 0) o := by
    intro o; funext a; apply Fin.ext
    match a with
    | ⟨0, _⟩ =>
      show win1_0.index t (0 : Fin 2) * 2048 + 1 * (j 0).val = win1_4.index t (0 : Fin 2) * 2048 + 1 * (j 0).val
      omega
    | ⟨1, _⟩ => show win1_0.index t (1 : Fin 2) * 5 + 1 * o.val = o.val; omega
  have h1 : ∀ o : Fin 5, ((cfg1.win 1).blk t).view.emb (ix2 0 o) = ix2 0 o := by
    intro o; funext a; apply Fin.ext
    match a with
    | ⟨0, _⟩ => show win1_1.index t (0 : Fin 2) * 1 + 1 * 0 = 0; omega
    | ⟨1, _⟩ => show win1_1.index t (1 : Fin 2) * 5 + 1 * o.val = o.val; omega
  have h2 : ((cfg1.win 2).blk t).view.emb (ix2 0 0) = ix2 0 0 := by
    funext a; apply Fin.ext
    match a with
    | ⟨0, _⟩ => show win1_2.index t (0 : Fin 2) * 1 + 1 * 0 = 0; omega
    | ⟨1, _⟩ => show win1_2.index t (1 : Fin 2) * 1 + 1 * 0 = 0; omega
  have h3 : ((cfg1.win 3).blk t).view.emb (ix2 0 0) = ix2 0 0 := by
    funext a; apply Fin.ext
    match a with
    | ⟨0, _⟩ => show win1_3.index t (0 : Fin 2) * 1 + 1 * 0 = 0; omega
    | ⟨1, _⟩ => show win1_3.index t (1 : Fin 2) * 1 + 1 * 0 = 0; omega
  exact congr (congr (congr (congrArg Spn.outv (funext fun o => congrArg (V c main_v5) (h0 o)))
    (congrArg (V c main_v7) h3)) (funext fun o => congrArg (V c main_arg8) (h1 o))) (congrArg (V c main_v8) h2)

/-- An index of the output array is in point `t`'s block iff each coordinate is in the block's range on its axis. -/
theorem mem_block (t : Fin cfg1.N) (i : S32768x1.Idx) :
    i ∈ ((cfg1.win 4).blk t).view.set ↔ ∀ a : Fin 2, win1_4.index t a * S2048x1.size a ≤ (i a).val
      ∧ (i a).val < win1_4.index t a * S2048x1.size a + S2048x1.size a := by
  show i ∈ ((View.whole main_v9).slice (win1_4.rect t)).set ↔ _
  rw [View.set_slice_whole, Rect.mem_set_unit]
  exact Iff.rfl

/-- Every row is written: row `r` lies in the block of point `r / 2048`, and every point writes its block back. -/
theorem rows_covered (i : S32768x1.Idx) :
    ∃ t : Fin cfg1.N, (cfg1.win 4).flush t = true ∧ i ∈ ((cfg1.win 4).blk t).view.set := by
  have hi0 : (i 0).val < 32768 := (i 0).isLt
  have hi1 : (i 1).val < 1 := (i 1).isLt
  have hN : (i 0).val / 2048 < cfg1.N := by rw [show cfg1.N = 16 from N_1]; omega
  obtain ⟨-, -, -, -, -, -, -, -, e40, e41⟩ := block_index ⟨(i 0).val / 2048, hN⟩
  refine ⟨⟨(i 0).val / 2048, hN⟩, flush1_4 _, ?_⟩
  rw [mem_block]
  intro a
  match a with
  | ⟨0, _⟩ =>
    show win1_4.index ⟨(i 0).val / 2048, hN⟩ (0 : Fin 2) * 2048 ≤ (i 0).val
      ∧ (i 0).val < win1_4.index ⟨(i 0).val / 2048, hN⟩ (0 : Fin 2) * 2048 + 2048
    rw [e40]; show (i 0).val / 2048 * 2048 ≤ (i 0).val ∧ (i 0).val < (i 0).val / 2048 * 2048 + 2048
    omega
  | ⟨1, _⟩ =>
    show win1_4.index ⟨(i 0).val / 2048, hN⟩ (1 : Fin 2) * 1 ≤ (i 1).val
      ∧ (i 1).val < win1_4.index ⟨(i 0).val / 2048, hN⟩ (1 : Fin 2) * 1 + 1
    rw [e41]; omega

/-- After the region's 16 grid points the output array (window 4, `32768 × 1`) holds the results of the arrays the
    region found at entry: the node values `main_v5`, the last weights `main_arg8`, the last bias `main_v8` and the
    batch-wide maximum `main_v7`. -/
theorem final (c : Dev nD) :
    (dat1 (F := Ideal) V c).arrAt 4 cfg1.N = Out1 (V c main_v5) (V c main_arg8) (V c main_v8) (V c main_v7) :=
  (dat1 V c).arrAt_eq_of_cover 4 (Out1 (V c main_v5) (V c main_arg8) (V c main_v8) (V c main_v7))
    (fun t _ => written_eq V c t) rows_covered

end Cert.KernelIdeal.Region1

end
-- ==== Proof.KValue.lean ====
/-
  The kernel program's result as one function of the arguments it was launched with, over the extended reals.

  Region 0 finds the arguments (the bias as one row, the log-weights as two tables) and leaves the node values `Yk`;
  the host takes their maximum; region 1 finds the node values, that maximum, the last weights and the last bias, and
  leaves the results. Chaining the two regions' value lemmas through the host operations between them gives the result
  buffer's contents after the run.
-/
import proofs.«121981_j12068858101769_1_alg».proof.Proof.KHost
import proofs.«121981_j12068858101769_1_alg».proof.Proof.KRegion0
import proofs.«121981_j12068858101769_1_alg».proof.Proof.KRegion1

set_option maxRecDepth 16384

noncomputable section

namespace Cert.KernelIdeal.KValue

open Cert.KernelIdeal Cert.KernelIdeal.Gen Cert.KernelIdeal.KSpec Cert.KernelIdeal.Host
open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The node values as a function of the launched arguments. -/
def Yk (c : Dev nD) : S32768x5.Idx → EReal :=
  Y0 (m ((c : Thread nD τ).loc main_arg0)) (m ((c : Thread nD τ).loc main_arg1))
    (shapeCast S1x20 (m ((c : Thread nD τ).loc main_arg2)) shapeCasts_S20_S1x20)
    (m ((c : Thread nD τ).loc main_arg3)) (m ((c : Thread nD τ).loc main_arg4)) (m ((c : Thread nD τ).loc main_arg5)) (m ((c : Thread nD τ).loc main_arg6))
    (shapeCast S5x20x20 (extractStridedSlice S5x20x20x1 ![0, 0, 0, 0] (m ((c : Thread nD τ).loc main_arg7))
      slices_S5x20x20x2_S5x20x20x1_0_0_0_0) shapeCasts_S5x20x20x1_S5x20x20)
    (shapeCast S5x20x20 (extractStridedSlice S5x20x20x1 ![0, 0, 0, 1] (m ((c : Thread nD τ).loc main_arg7))
      slices_S5x20x20x2_S5x20x20x1_0_0_0_1) shapeCasts_S5x20x20x1_S5x20x20)

/-- Region 0 leaves the node values of the launched arguments. -/
theorem y_region (c : Dev nD) : (dat0 (F := Ideal) (V1 m ρ) c).arrAt 9 cfg0.N = Yk m c := by
  rw [Region0.final (V1 m ρ) c, V1_arg0, V1_arg1, V1_v0, V1_arg3, V1_arg4, V1_arg5, V1_arg6, V1_v2, V1_v4]
  rfl

/-- The result buffer after the run: the results of the node values, their maximum, the last weights and bias. -/
theorem result (c : Dev nD) :
    W4 m ρ c (Proc.devRef .tc main_v9)
      = Out1 (Yk m c) (m ((c : Thread nD τ).loc main_arg8)) (shapeCast S1x1 (m ((c : Thread nD τ).loc main_arg9)) shapeCasts_S1_S1x1)
          (shapeCast S1x1 (Host.reduce (FloatOps.maximumf (F := Ideal) (φ := .f32)) (Yk m c) (constant (F := Ideal) S_ .f32 0xFF800000#32)
            reducesTo_S32768x5_S_d0_1 h_S_) shapeCasts_S_S1x1) := by
  rw [show W4 m ρ c (Proc.devRef .tc main_v9) = (dat1 (V3 m ρ) c).arrAt 4 cfg1.N from W4_arr m ρ c 4,
    Region1.final (V3 m ρ) c, V3_v5, V3_arg8, V3_v8, V3_v7, y_region]

end Cert.KernelIdeal.KValue

end
-- ==== Proof.RefValue.lean ====
/-
  The reference program read as values. Its node values (the array it takes the batch-wide maximum of) are the
  specification's `Spn.yv` at every `(row, node)`, and its result is the specification's `Spn.outv` of those node
  values, their maximum, and the last weights and bias.
-/
import proofs.«121981_j12068858101769_1_alg».proof.Proof.Gen.ReferenceIdeal.Run
import proofs.«121981_j12068858101769_1_alg».proof.Proof.Gen.ReferenceIdeal.Read
import proofs.«121981_j12068858101769_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

/-- The host's sum over the last two axes of the four-axis array, read at `(b, o)`: an index is dropped to `(b, o)`
    exactly when its first two coordinates are `b` and `o`, so the indices summed are the pairs of last coordinates. -/
theorem sum_last_two (x : S32768x5x20x20.Idx → EReal) (init : EReal) (b : Fin 32768) (o : Fin 5) :
    Ideal.hostReduceAdd reducesTo_S32768x5x20x20_S32768x5_d2_3 x init (ix2 b o)
      = init + ∑ j : Fin 20, ∑ k : Fin 20, x (ix4 b o j k) := by
  unfold Ideal.hostReduceAdd
  rw [← Spn.sum_pairs (fun j k => x (ix4 b o j k))]
  refine congrArg (fun z => init + z) ?_
  have key : ∀ a ∈ Finset.univ.filter (fun i => reducesTo_S32768x5x20x20_S32768x5_d2_3.drop i = ix2 b o),
      ix4 b o (a 2 : Fin 20) (a 3 : Fin 20) = a := by
    intro a ha
    have hd := (Finset.mem_filter.mp ha).2
    have h0 : (a 0).val = b.val :=
      (reducesTo_S32768x5x20x20_S32768x5_d2_3.drop_apply_val_of_eq a 0 0).symm.trans (congrArg (fun f => (f 0).val) hd)
    have h1 : (a 1).val = o.val :=
      (reducesTo_S32768x5x20x20_S32768x5_d2_3.drop_apply_val_of_eq a 1 1).symm.trans (congrArg (fun f => (f 1).val) hd)
    funext c
    match c with
    | ⟨0, _⟩ => exact Fin.ext h0.symm
    | ⟨1, _⟩ => exact Fin.ext h1.symm
    | ⟨2, _⟩ => rfl
    | ⟨3, _⟩ => rfl
  refine Finset.sum_nbij' (fun i => ((i 2 : Fin 20), (i 3 : Fin 20))) (fun p => ix4 b o p.1 p.2) ?_ ?_ key ?_ ?_
  · intro a _; exact Finset.mem_univ _
  · intro p _
    refine Finset.mem_filter.mpr ⟨Finset.mem_univ _, funext fun c => Fin.ext ?_⟩
    match c with
    | ⟨0, _⟩ => exact reducesTo_S32768x5x20x20_S32768x5_d2_3.drop_apply_val_of_eq _ 0 0
    | ⟨1, _⟩ => exact reducesTo_S32768x5x20x20_S32768x5_d2_3.drop_apply_val_of_eq _ 1 1
  · intro p _; rfl
  · intro a ha
    exact congrArg x (key a ha).symm

variable (x0 : (⟨S32768x512, .f32⟩ : BufTy).Contents (Elt Ideal)) (x1 : (⟨S20x512, .f32⟩ : BufTy).Contents (Elt Ideal)) (x2 : (⟨S20, .f32⟩ : BufTy).Contents (Elt Ideal))
  (x3 x4 x5 x6 : (⟨S5x20, .f32⟩ : BufTy).Contents (Elt Ideal)) (x7 : (⟨S5x20x20x2, .f32⟩ : BufTy).Contents (Elt Ideal)) (x8 : (⟨S1x5, .f32⟩ : BufTy).Contents (Elt Ideal)) (x9 : (⟨S1, .f32⟩ : BufTy).Contents (Elt Ideal))

/-- A hidden unit of the reference: the relu of the affine map, the contraction read over the 512 input features. -/
theorem hid_eq (b : Fin 32768) (j : Fin 20) :
    val_main_v5 (F := Ideal) x0 x1 x2 (ix2 b j)
      = Spn.hid (fun b k => x0 (ix2 b k)) (fun j k => x1 (ix2 j k)) (fun j => x2 (ix1 j)) b j := by
  have el : ∀ k : Fin 512, lidx_main_v1 (ix2 b j) k = ix2 b k := fun k =>
    funext fun a => Fin.ext (by match a with | ⟨0, _⟩ => rfl | ⟨1, _⟩ => rfl)
  have er : ∀ k : Fin 512, idx_main_v0 (ridx_main_v1 (ix2 b j) k) = ix2 j k := fun k =>
    funext fun a => Fin.ext (by match a with | ⟨0, _⟩ => rfl | ⟨1, _⟩ => rfl)
  have eb : idx_main_v2 (idx_main_v3 (ix2 b j)) = ix1 j :=
    funext fun a => Fin.ext (by match a with | ⟨0, _⟩ => rfl)
  rw [val_main_v5_apply, val_main_v4_apply, val_main_v1_apply, val_main_v3_apply, val_main_v2_apply,
    val_main_call0_v0_apply, val_main_call0_cst_apply]
  simp only [val_main_v0_apply, el, er, eb, Ideal.maximumf_def, Ideal.addf_def, Ideal.ofBits_def, Ideal.ofBits_zero_f32]
  rfl

/-- The first Gaussian leaf of node `o` at hidden unit `j` on row `b`. -/
theorem leaf0_eq (b : Fin 32768) (o : Fin 5) (j : Fin 20) :
    val_main_v21 (F := Ideal) x0 x1 x2 x3 x4 (ix3 b o j)
      = Spn.leaf (val_main_v5 (F := Ideal) x0 x1 x2 (ix2 b j)) (x3 (ix2 o j)) (x4 (ix2 o j)) := by
  have eh : idx_main_v6 (idx_main_v9 (ix3 b o j)) = ix2 b j :=
    funext fun a => Fin.ext (by match a with | ⟨0, _⟩ => rfl | ⟨1, _⟩ => rfl)
  have em : idx_main_v7 (idx_main_v10 (ix3 b o j)) = ix2 o j :=
    funext fun a => Fin.ext (by match a with | ⟨0, _⟩ => rfl | ⟨1, _⟩ => rfl)
  have es : idx_main_v8 (idx_main_v12 (ix3 b o j)) = ix2 o j :=
    funext fun a => Fin.ext (by match a with | ⟨0, _⟩ => rfl | ⟨1, _⟩ => rfl)
  rw [val_main_v21_apply, val_main_v19_apply, val_main_v16_apply, val_main_v15_apply, val_main_v13_apply,
    val_main_v11_apply, val_main_v9_apply, val_main_v6_apply, val_main_v10_apply, val_main_v7_apply,
    val_main_v12_apply, val_main_v8_apply, val_main_v14_apply, val_main_cst_apply, val_main_v18_apply,
    val_main_v17_apply, val_main_v8_apply, val_main_v20_apply, val_main_cst_0_apply, eh, em, es]
  simp only [Ideal.subf_def, Ideal.mulf_def, Ideal.hostDivf_def, Ideal.hostUnary_log_def, Ideal.ofBits_def]
  rfl

/-- The second Gaussian leaf of node `o` at hidden unit `j` on row `b`. -/
theorem leaf1_eq (b : Fin 32768) (o : Fin 5) (j : Fin 20) :
    val_main_v37 (F := Ideal) x0 x1 x2 x5 x6 (ix3 b o j)
      = Spn.leaf (val_main_v5 (F := Ideal) x0 x1 x2 (ix2 b j)) (x5 (ix2 o j)) (x6 (ix2 o j)) := by
  have eh : idx_main_v22 (idx_main_v25 (ix3 b o j)) = ix2 b j :=
    funext fun a => Fin.ext (by match a with | ⟨0, _⟩ => rfl | ⟨1, _⟩ => rfl)
  have em : idx_main_v23 (idx_main_v26 (ix3 b o j)) = ix2 o j :=
    funext fun a => Fin.ext (by match a with | ⟨0, _⟩ => rfl | ⟨1, _⟩ => rfl)
  have es : idx_main_v24 (idx_main_v28 (ix3 b o j)) = ix2 o j :=
    funext fun a => Fin.ext (by match a with | ⟨0, _⟩ => rfl | ⟨1, _⟩ => rfl)
  rw [val_main_v37_apply, val_main_v35_apply, val_main_v32_apply, val_main_v31_apply, val_main_v29_apply,
    val_main_v27_apply, val_main_v25_apply, val_main_v22_apply, val_main_v26_apply, val_main_v23_apply,
    val_main_v28_apply, val_main_v24_apply, val_main_v30_apply, val_main_cst_1_apply, val_main_v34_apply,
    val_main_v33_apply, val_main_v24_apply, val_main_v36_apply, val_main_cst_2_apply, eh, em, es]
  simp only [Ideal.subf_def, Ideal.mulf_def, Ideal.hostDivf_def, Ideal.hostUnary_log_def, Ideal.ofBits_def]
  rfl

/-- The first product node of the pair `(j, k)`, with its log-weight: the reshape of the weights' slice is undone by
    division and remainder at the literal extents. -/
theorem arg0_eq (b : Fin 32768) (o : Fin 5) (j k : Fin 20) :
    val_main_v52 (F := Ideal) x0 x1 x2 x3 x4 x7 (ix4 b o j k)
      = x7 (ix4 o j k 0) + (val_main_v21 (F := Ideal) x0 x1 x2 x3 x4 (ix3 b o j)
          + val_main_v21 (F := Ideal) x0 x1 x2 x3 x4 (ix3 b o k)) := by
  have ho := o.isLt
  have hj := j.isLt
  have hk := k.isLt
  have ew : idx_main_v48 (idx_main_v49 (idx_main_v50 (idx_main_v51 (ix4 b o j k)))) = ix4 o j k 0 :=
    funext fun a => Fin.ext (by
      match a with
      | ⟨0, _⟩ => show ((o.val * 20 + j.val) * 20 + k.val) / 400 = o.val; omega
      | ⟨1, _⟩ => show ((o.val * 20 + j.val) * 20 + k.val) / 20 % 20 = j.val; omega
      | ⟨2, _⟩ => show ((o.val * 20 + j.val) * 20 + k.val) / 1 % 20 = k.val; omega
      | ⟨3, _⟩ => rfl)
  have ej : idx_main_v38 (idx_main_v40 (ix4 b o j k)) = ix3 b o j :=
    funext fun a => Fin.ext (by match a with | ⟨0, _⟩ => rfl | ⟨1, _⟩ => rfl | ⟨2, _⟩ => rfl)
  have ek : idx_main_v39 (idx_main_v41 (ix4 b o j k)) = ix3 b o k :=
    funext fun a => Fin.ext (by match a with | ⟨0, _⟩ => rfl | ⟨1, _⟩ => rfl | ⟨2, _⟩ => rfl)
  rw [val_main_v52_apply, val_main_v51_apply, val_main_v50_apply, val_main_v49_apply, val_main_v48_apply,
    val_main_v42_apply, val_main_v40_apply, val_main_v38_apply, val_main_v41_apply, val_main_v39_apply, ew, ej, ek]
  rfl

/-- The second product node of the pair `(j, k)`, with its log-weight. -/
theorem arg1_eq (b : Fin 32768) (o : Fin 5) (j k : Fin 20) :
    val_main_v57 (F := Ideal) x0 x1 x2 x5 x6 x7 (ix4 b o j k)
      = x7 (ix4 o j k 1) + (val_main_v37 (F := Ideal) x0 x1 x2 x5 x6 (ix3 b o j)
          + val_main_v37 (F := Ideal) x0 x1 x2 x5 x6 (ix3 b o k)) := by
  have ho := o.isLt
  have hj := j.isLt
  have hk := k.isLt
  have ew : idx_main_v53 (idx_main_v54 (idx_main_v55 (idx_main_v56 (ix4 b o j k)))) = ix4 o j k 1 :=
    funext fun a => Fin.ext (by
      match a with
      | ⟨0, _⟩ => show ((o.val * 20 + j.val) * 20 + k.val) / 400 = o.val; omega
      | ⟨1, _⟩ => show ((o.val * 20 + j.val) * 20 + k.val) / 20 % 20 = j.val; omega
      | ⟨2, _⟩ => show ((o.val * 20 + j.val) * 20 + k.val) / 1 % 20 = k.val; omega
      | ⟨3, _⟩ => rfl)
  have ej : idx_main_v43 (idx_main_v45 (ix4 b o j k)) = ix3 b o j :=
    funext fun a => Fin.ext (by match a with | ⟨0, _⟩ => rfl | ⟨1, _⟩ => rfl | ⟨2, _⟩ => rfl)
  have ek : idx_main_v44 (idx_main_v46 (ix4 b o j k)) = ix3 b o k :=
    funext fun a => Fin.ext (by match a with | ⟨0, _⟩ => rfl | ⟨1, _⟩ => rfl | ⟨2, _⟩ => rfl)
  rw [val_main_v57_apply, val_main_v56_apply, val_main_v55_apply, val_main_v54_apply, val_main_v53_apply,
    val_main_v47_apply, val_main_v45_apply, val_main_v43_apply, val_main_v46_apply, val_main_v44_apply, ew, ej, ek]
  rfl

/-- A sum node of the reference: the guard compares the difference with itself, so the stable form is taken. -/
theorem node_eq (b : Fin 32768) (o : Fin 5) (j k : Fin 20) :
    val_main_v67 (F := Ideal) x0 x1 x2 x3 x4 x5 x6 x7 (ix4 b o j k)
      = Spn.node (fun j => val_main_v5 (F := Ideal) x0 x1 x2 (ix2 b j))
          (fun j => x3 (ix2 o j)) (fun j => x4 (ix2 o j)) (fun j => x5 (ix2 o j)) (fun j => x6 (ix2 o j))
          (fun j k => x7 (ix4 o j k 0)) (fun j k => x7 (ix4 o j k 1)) j k := by
  rw [val_main_v67_apply, val_main_v60_apply, Ideal.cmpf_def, Spn.select_une_self, val_main_v66_apply,
    val_main_v58_apply, val_main_v65_apply, val_main_v64_apply, val_main_v63_apply, val_main_v62_apply,
    val_main_v59_apply, arg0_eq, arg1_eq, leaf0_eq, leaf0_eq, leaf1_eq, leaf1_eq]
  simp only [Ideal.addf_def, Ideal.maximumf_def, Ideal.hostUnary_log1p_def, Ideal.hostUnary_exp_def,
    Ideal.hostNegf_def, Ideal.negf_def, Ideal.hostAbsf_def, Ideal.absf_def, Ideal.subf_def]
  rfl

/-- The root of node `o` on row `b`: the sum of its four hundred sum nodes, the initial value being zero. -/
theorem root_eq (b : Fin 32768) (o : Fin 5) :
    val_main_v68 (F := Ideal) x0 x1 x2 x3 x4 x5 x6 x7 (ix2 b o)
      = ∑ j : Fin 20, ∑ k : Fin 20, val_main_v67 (F := Ideal) x0 x1 x2 x3 x4 x5 x6 x7 (ix4 b o j k) := by
  unfold val_main_v68 Host.reduceAdd
  rw [Ideal.hostReduceAdd_def]
  refine (sum_last_two _ _ b o).trans ?_
  rw [val_main_cst_3_apply, Ideal.ofBits_def, Ideal.ofBits_zero_f32, zero_add]

/-- The reference's node values: entry `(b, o)` is the log of the negated root of node `o` on row `b`. -/
theorem y_eq :
    val_main_v70 (F := Ideal) x0 x1 x2 x3 x4 x5 x6 x7
      = fun i => Spn.yv
          (fun j => Spn.hid (fun b k => x0 (ix2 b k)) (fun j k => x1 (ix2 j k)) (fun j => x2 (ix1 j)) (i 0) j)
          (fun j => x3 (ix2 (i 1) j)) (fun j => x4 (ix2 (i 1) j)) (fun j => x5 (ix2 (i 1) j)) (fun j => x6 (ix2 (i 1) j))
          (fun j k => x7 (ix4 (i 1) j k 0)) (fun j k => x7 (ix4 (i 1) j k 1)) := by
  funext i
  obtain ⟨b, o, rfl⟩ : ∃ (b : Fin 32768) (o : Fin 5), i = ix2 b o := ⟨i 0, i 1, eq_ix2 i⟩
  rw [val_main_v70_apply, val_main_v69_apply, root_eq]
  simp only [node_eq, hid_eq, Ideal.hostUnary_log_def, Ideal.hostNegf_def, Ideal.negf_def]
  rfl

/-- The reference's result from its node values and their maximum. -/
theorem out_eq :
    val_main_v84 (F := Ideal) x0 x1 x2 x3 x4 x5 x6 x7 x8 x9
      = fun i => Spn.outv (fun o => val_main_v70 (F := Ideal) x0 x1 x2 x3 x4 x5 x6 x7 (ix2 (i 0) o))
          (val_main_v71 (F := Ideal) x0 x1 x2 x3 x4 x5 x6 x7 ix0) (fun o => x8 (ix2 0 o)) (x9 (ix1 0)) := by
  funext i
  obtain ⟨b, c, rfl⟩ : ∃ (b : Fin 32768) (c : Fin 1), i = ix2 b c := ⟨i 0, i 1, eq_ix2 i⟩
  obtain rfl : c = 0 := Subsingleton.elim _ _
  have eb : idx_main_v76 (idx_main_v77 (ix2 b (0 : Fin 1))) = ix1 0 :=
    funext fun a => Fin.ext (by match a with | ⟨0, _⟩ => rfl)
  have hs : ∀ k : Fin 5,
      val_main_v73 (F := Ideal) x0 x1 x2 x3 x4 x5 x6 x7 (lidx_main_v75 (ix2 b (0 : Fin 1)) k)
          * val_main_v74 (F := Ideal) x8 (ridx_main_v75 (ix2 b (0 : Fin 1)) k)
        = (val_main_v71 (F := Ideal) x0 x1 x2 x3 x4 x5 x6 x7 ix0
            - val_main_v70 (F := Ideal) x0 x1 x2 x3 x4 x5 x6 x7 (ix2 b k)) * x8 (ix2 0 k) := by
    intro k
    have el : lidx_main_v75 (ix2 b (0 : Fin 1)) k = ix2 b k :=
      funext fun a => Fin.ext (by match a with | ⟨0, _⟩ => rfl | ⟨1, _⟩ => rfl)
    have er : idx_main_v74 (ridx_main_v75 (ix2 b (0 : Fin 1)) k) = ix2 0 k :=
      funext fun a => Fin.ext (by match a with | ⟨0, _⟩ => rfl | ⟨1, _⟩ => rfl)
    have e0 : idx_main_v72 (ix2 b k) = ix0 := rfl
    rw [val_main_v73_apply, val_main_v72_apply, val_main_v74_apply, el, er, e0, Ideal.subf_def]
  rw [val_main_v84_apply, val_main_v83_apply, val_main_cst_6_apply, val_main_v82_apply, val_main_v81_apply,
    val_main_cst_5_apply, val_main_v80_apply, val_main_v79_apply, val_main_v78_apply, val_main_v75_apply,
    val_main_v77_apply, val_main_v76_apply, eb, Finset.sum_congr rfl (fun k _ => hs k)]
  generalize val_main_v71 (F := Ideal) x0 x1 x2 x3 x4 x5 x6 x7 = M
  generalize val_main_v70 (F := Ideal) x0 x1 x2 x3 x4 x5 x6 x7 = Y
  rw [Ideal.hostDivf_def, Ideal.addf_def, Ideal.addf_def, Ideal.hostUnary_exp_def, Ideal.hostNegf_def, Ideal.negf_def,
    Ideal.ofBits_def, Spn.ofBits_one_f32, Spn.logistic_eq]
  rfl

end Cert.ReferenceIdeal.RefValue

end
-- ==== Proof.Bridge.lean ====
/-
  The two programs compute one function. The reference's node values are the kernel's node-value array (both are the
  specification's `yv`, the kernel's bias row and log-weight tables read back through the host's reshapes and slices);
  so their maxima, taken by the same host operation, are one number, and the last affine map and logistic function give
  one result at every row.
-/
import proofs.«121981_j12068858101769_1_alg».proof.Proof.KValue
import proofs.«121981_j12068858101769_1_alg».proof.Proof.RefValue

set_option maxRecDepth 16384

noncomputable section

namespace Cert.Proof.Bridge

open Cert.KernelIdeal Cert.KernelIdeal.Gen Cert.KernelIdeal.KSpec Cert.KernelIdeal.Host Cert.KernelIdeal.KValue
open Idealize.ShloMosaic Idealize.ShloMosaic.TcCoe Idealize.ShloMosaic.ValueIdx Idealize.SL.Sem

variable (m : (ℓ : Loc nD τ sig) → Buf (Elt Ideal) ℓ) (ρ : Dev nD → PrngReg)

/-- The reference's node values, of the kernel's launched arguments, are the kernel's node values. -/
theorem y_same (c : Dev nD) :
    Cert.ReferenceIdeal.Read.val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      = Yk m c := by
  rw [Cert.ReferenceIdeal.RefValue.y_eq]
  funext i
  unfold Yk Y0
  have e0 : ∀ j k : Fin 20, shapeCast S5x20x20 (extractStridedSlice S5x20x20x1 ![0, 0, 0, 0] (m ((c : Thread nD τ).loc main_arg7))
      slices_S5x20x20x2_S5x20x20x1_0_0_0_0) shapeCasts_S5x20x20x1_S5x20x20 (ix3 (i 1) j k)
      = (m ((c : Thread nD τ).loc main_arg7)) (ix4 (i 1) j k 0) := fun j k => table0 _ (i 1) j k
  have e1 : ∀ j k : Fin 20, shapeCast S5x20x20 (extractStridedSlice S5x20x20x1 ![0, 0, 0, 1] (m ((c : Thread nD τ).loc main_arg7))
      slices_S5x20x20x2_S5x20x20x1_0_0_0_1) shapeCasts_S5x20x20x1_S5x20x20 (ix3 (i 1) j k)
      = (m ((c : Thread nD τ).loc main_arg7)) (ix4 (i 1) j k 1) := fun j k => table1 _ (i 1) j k
  simp only [row_of_vec, e0, e1]

/-- The reference's result, of the kernel's launched arguments, is what the kernel leaves in its result buffer. -/
theorem result_same (c : Dev nD) :
    Cert.ReferenceIdeal.Read.val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      = W4 m ρ c (Proc.devRef .tc main_v9) := by
  rw [KValue.result, Cert.ReferenceIdeal.RefValue.out_eq]
  funext i
  unfold Out1
  rw [one_of_vec, one_of_scalar]
  unfold Cert.ReferenceIdeal.Read.val_main_v71
  rw [y_same m c]
  rfl

end Cert.Proof.Bridge

end
-- ==== Proof.lean ====
/-
  The certificate: the kernel program and its idealization run and leave their arguments unchanged, the reference runs
  and leaves its arguments unchanged, the idealization rewrote nothing, and at the extended reals the idealized kernel
  and the reference, started from memories that agree on the ten arguments, end with the same `32768 × 1` result.

  The frames are the generated ones (the reference's is its generated run with the result dropped). The value claim
  puts the two runs side by side: the kernel's run names its result buffer as what the second region's write-backs
  leave there, the reference's run names its result as the composed term of its operations, and `Bridge.result_same`
  says these are one array — both are the specification (`Cert.Spn`) of the arguments: hidden units by an affine map
  and a relu, two Gaussian leaves per unit and node, a stable log-sum-exp per pair of units, the log of the negated
  total per node, and the logistic function of an affine map of the batch-wide maximum minus the node values.
-/
import proofs.«121981_j12068858101769_1_alg».proof.Defs
import proofs.«121981_j12068858101769_1_alg».proof.Proof.Gen.Kernel
import proofs.«121981_j12068858101769_1_alg».proof.Proof.Gen.Kernel.Skeleton
import proofs.«121981_j12068858101769_1_alg».proof.Proof.Gen.Kernel.Launch
import proofs.«121981_j12068858101769_1_alg».proof.Proof.Gen.Kernel.Points
import proofs.«121981_j12068858101769_1_alg».proof.Proof.Gen.Kernel.Frame
import proofs.«121981_j12068858101769_1_alg».proof.Proof.Gen.KernelIdeal
import proofs.«121981_j12068858101769_1_alg».proof.Proof.Gen.KernelIdeal.Skeleton
import proofs.«121981_j12068858101769_1_alg».proof.Proof.Gen.KernelIdeal.Launch
import proofs.«121981_j12068858101769_1_alg».proof.Proof.Gen.KernelIdeal.Points
import proofs.«121981_j12068858101769_1_alg».proof.Proof.Gen.KernelIdeal.Frame
import proofs.«121981_j12068858101769_1_alg».proof.Proof.Gen.ReferenceIdeal
import proofs.«121981_j12068858101769_1_alg».proof.Proof.Gen.ReferenceIdeal.Run
import proofs.«121981_j12068858101769_1_alg».proof.Proof.Gen.ReferenceIdeal.Read
import proofs.«121981_j12068858101769_1_alg».proof.Proof.Gen.Pre_finite_inputs
import proofs.«121981_j12068858101769_1_alg».proof.Proof.KRun
import proofs.«121981_j12068858101769_1_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the extended reals both programs end, the kernel's result buffer and the reference's result holding one
    array: the kernel's run with its result named, the reference's run, the arguments' agreement rewritten, and the
    two values identified. -/
theorem algebraic : Cert.algebraic_KernelIdeal_ReferenceIdeal := by
  intro m ρ m' ρ' _ hagree
  refine ⟨fun c => Cert.KernelIdeal.Gen.W4 m ρ c (Proc.devRef .tc Cert.KernelIdeal.main_v9),
    Cert.KernelIdeal.Run.run_value (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v84_eq, h0, h1, h2, h3, h4, h5, h6, h7, h8, h9]
  exact Cert.Proof.Bridge.result_same m ρ c

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
